-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x128 : Shape := ⟨3, ![2, 50000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S2x50000x128 : S_.BroadcastsInDim S2x50000x128 (![] : Fin 0 → Fin S2x50000x128.rank)
  reducesTo_S2x50000x128_S_d0_1_2 : S2x50000x128.ReducesTo [0, 1, 2] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S2x50000x128 .f32) (main_arg1 : IVec S2x640000 32) (main_arg2 : FVec F S640000 .f32) (main_arg3 : FVec F S128x128 .f32) (main_arg4 : FVec F S128 .f32) (main_arg5 : FVec F S128x128 .f32) (main_arg6 : FVec F S128 .f32) : IVec S_ 1 :=
  let main_v0 : FVec F S2x50000x128 .f32 := Host.absf main_arg0
  let main_cst : FVec F S_ .f32 := constant S_ .f32 0x7F800000#32
  let main_v1 : FVec F S2x50000x128 .f32 := broadcastInDim S2x50000x128 ![] bcast_S_S2x50000x128 main_cst
  let main_v2 : IVec S2x50000x128 1 := cmpf .olt main_v0 main_v1
  let main_c : IVec S_ 1 := constantI S_ 1 1#1
  let main_v3 : IVec S_ 1 := (fun x v => Host.reduce IntOp.andi x v reducesTo_S2x50000x128_S_d0_1_2 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S2x50000x128 : Shape := ⟨3, ![2, 50000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S1x640000 : Shape := ⟨2, ![1, 640000]⟩
abbrev S50000 : Shape := ⟨1, ![50000]⟩
abbrev S690000 : Shape := ⟨1, ![690000]⟩
abbrev S_ : Shape := ⟨0, ![]⟩
abbrev S690000x1 : Shape := ⟨2, ![690000, 1]⟩
abbrev S100000x128 : Shape := ⟨2, ![100000, 128]⟩
abbrev S10000x128 : Shape := ⟨2, ![10000, 128]⟩
abbrev S2x690000x128 : Shape := ⟨3, ![2, 690000, 128]⟩
abbrev S1x690000x1 : Shape := ⟨3, ![1, 690000, 1]⟩
abbrev S50000x128 : Shape := ⟨2, ![50000, 128]⟩
abbrev S1x128 : Shape := ⟨2, ![1, 128]⟩

abbrev nBuf : Space → Nat
  | .hbm => 97
  | .vmem => 20
  | .smem => 0
  | _ => 0

abbrev bufTy : (tb : Table) → Fin (tcTables nBuf tb) → BufTy
  | .hbm, ⟨0, _⟩ => ⟨S2x50000x128, .f32⟩
  | .hbm, ⟨1, _⟩ => ⟨S2x640000, .i32⟩
  | .hbm, ⟨2, _⟩ => ⟨S640000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S50000, .i32⟩
  | .hbm, ⟨12, _⟩ => ⟨S690000, .i32⟩
  | .hbm, ⟨13, _⟩ => ⟨S690000, .i32⟩
  | .hbm, ⟨14, _⟩ => ⟨S_, .f32⟩
  | .hbm, ⟨15, _⟩ => ⟨S50000, .f32⟩
  | .hbm, ⟨16, _⟩ => ⟨S690000, .f32⟩
  | .hbm, ⟨17, _⟩ => ⟨S_, .f32⟩
  | .hbm, ⟨18, _⟩ => ⟨S50000, .f32⟩
  | .hbm, ⟨19, _⟩ => ⟨S690000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S690000, .i32⟩
  | .hbm, ⟨31, _⟩ => ⟨S690000, .i1⟩
  | .hbm, ⟨32, _⟩ => ⟨S_, .i32⟩
  | .hbm, ⟨33, _⟩ => ⟨S690000, .i32⟩
  | .hbm, ⟨34, _⟩ => ⟨S690000, .i32⟩
  | .hbm, ⟨35, _⟩ => ⟨S690000, .i32⟩
  | .hbm, ⟨36, _⟩ => ⟨S690000x1, .i32⟩
  | .hbm, ⟨37, _⟩ => ⟨S690000, .f32⟩
  | .hbm, ⟨38, _⟩ => ⟨S690000, .f32⟩
  | .hbm, ⟨39, _⟩ => ⟨S_, .i32⟩
  | .hbm, ⟨40, _⟩ => ⟨S690000, .i32⟩
  | .hbm, ⟨41, _⟩ => ⟨S690000, .i1⟩
  | .hbm, ⟨42, _⟩ => ⟨S_, .i32⟩
  | .hbm, ⟨43, _⟩ => ⟨S690000, .i32⟩
  | .hbm, ⟨44, _⟩ => ⟨S690000, .i32⟩
  | .hbm, ⟨45, _⟩ => ⟨S690000, .i32⟩
  | .hbm, ⟨46, _⟩ => ⟨S690000x1, .i32⟩
  | .hbm, ⟨47, _⟩ => ⟨S690000, .f32⟩
  | .hbm, ⟨48, _⟩ => ⟨S690000, .f32⟩
  | .hbm, ⟨49, _⟩ => ⟨S100000x128, .f32⟩
  | .hbm, ⟨50, _⟩ => ⟨S100000x128, .f32⟩
  | .hbm, ⟨51, _⟩ => ⟨S2x50000x128, .f32⟩
  | .hbm, ⟨52, _⟩ => ⟨S_, .i32⟩
  | .hbm, ⟨53, _⟩ => ⟨S690000, .i32⟩
  | .hbm, ⟨54, _⟩ => ⟨S690000, .i1⟩
  | .hbm, ⟨55, _⟩ => ⟨S_, .i32⟩
  | .hbm, ⟨56, _⟩ => ⟨S690000, .i32⟩
  | .hbm, ⟨57, _⟩ => ⟨S690000, .i32⟩
  | .hbm, ⟨58, _⟩ => ⟨S690000, .i32⟩
  | .hbm, ⟨59, _⟩ => ⟨S690000x1, .i32⟩
  | .hbm, ⟨60, _⟩ => ⟨S2x690000x128, .f32⟩
  | .hbm, ⟨61, _⟩ => ⟨S1x690000x1, .f32⟩
  | .hbm, ⟨62, _⟩ => ⟨S2x690000x128, .f32⟩
  | .hbm, ⟨63, _⟩ => ⟨S2x690000x128, .f32⟩
  | .hbm, ⟨64, _⟩ => ⟨S_, .f32⟩
  | .hbm, ⟨65, _⟩ => ⟨S50000x128, .f32⟩
  | .hbm, ⟨66, _⟩ => ⟨S690000x1, .i32⟩
  | .hbm, ⟨67, _⟩ => ⟨S2x50000x128, .f32⟩
  | .hbm, ⟨68, _⟩ => ⟨S2x50000x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S2x50000x128, .f32⟩
  | .hbm, ⟨73, _⟩ => ⟨S100000x128, .f32⟩
  | .hbm, ⟨74, _⟩ => ⟨S100000x128, .f32⟩
  | .hbm, ⟨75, _⟩ => ⟨S2x50000x128, .f32⟩
  | .hbm, ⟨76, _⟩ => ⟨S_, .i32⟩
  | .hbm, ⟨77, _⟩ => ⟨S690000, .i32⟩
  | .hbm, ⟨78, _⟩ => ⟨S690000, .i1⟩
  | .hbm, ⟨79, _⟩ => ⟨S_, .i32⟩
  | .hbm, ⟨80, _⟩ => ⟨S690000, .i32⟩
  | .hbm, ⟨81, _⟩ => ⟨S690000, .i32⟩
  | .hbm, ⟨82, _⟩ => ⟨S690000, .i32⟩
  | .hbm, ⟨83, _⟩ => ⟨S690000x1, .i32⟩
  | .hbm, ⟨84, _⟩ => ⟨S2x690000x128, .f32⟩
  | .hbm, ⟨85, _⟩ => ⟨S1x690000x1, .f32⟩
  | .hbm, ⟨86, _⟩ => ⟨S2x690000x128, .f32⟩
  | .hbm, ⟨87, _⟩ => ⟨S2x690000x128, .f32⟩
  | .hbm, ⟨88, _⟩ => ⟨S_, .f32⟩
  | .hbm, ⟨89, _⟩ => ⟨S50000x128, .f32⟩
  | .hbm, ⟨90, _⟩ => ⟨S690000x1, .i32⟩
  | .hbm, ⟨91, _⟩ => ⟨S2x50000x128, .f32⟩
  | .hbm, ⟨92, _⟩ => ⟨S2x50000x128, .f32⟩
  | .hbm, ⟨93, _⟩ => ⟨S100000x128, .f32⟩
  | .hbm, ⟨94, _⟩ => ⟨S1x128, .f32⟩
  | .hbm, ⟨95, _⟩ => ⟨S100000x128, .f32⟩
  | .hbm, ⟨96, _⟩ => ⟨S2x50000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | _, _ => ⟨S2x50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_9 : Ref sig .tc := ⟨.hbm, 76, rfl⟩
abbrev main_v56 : Ref sig .tc := ⟨.hbm, 77, rfl⟩
abbrev main_v57 : Ref sig .tc := ⟨.hbm, 78, rfl⟩
abbrev main_c_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S50000_S690000_d0 : Shape.Concatenates [S640000, S50000] S690000 0
  bcast_S_S50000 : S_.BroadcastsInDim S50000 (![] : Fin 0 → Fin S50000.rank)
  bcast_S690000_S690000x1_0 : S690000.BroadcastsInDim S690000x1 (![0] : Fin 1 → Fin S690000x1.rank)
  bcast_S_S690000 : S_.BroadcastsInDim S690000 (![] : Fin 0 → Fin S690000.rank)
  shapeCasts_S2x50000x128_S100000x128 : S2x50000x128.ShapeCasts S100000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S100000x128_S2x50000x128 : S100000x128.ShapeCasts S2x50000x128
  bcast_S690000_S1x690000x1_1 : S690000.BroadcastsInDim S1x690000x1 (![1] : Fin 1 → Fin S1x690000x1.rank)
  bcast_S1x690000x1_S2x690000x128_0_1_2 : S1x690000x1.BroadcastsInDim S2x690000x128 (![0, 1, 2] : Fin 3 → Fin S2x690000x128.rank)
  bcast_S_S50000x128 : S_.BroadcastsInDim S50000x128 (![] : Fin 0 → Fin S50000x128.rank)
  bcast_S50000x128_S2x50000x128_1_2 : S50000x128.BroadcastsInDim S2x50000x128 (![1, 2] : Fin 2 → Fin S2x50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S10000x128_S128x128_S10000x128_1_0_0_1_n_n_wf : DotDims.WF S10000x128 S128x128 S10000x128 [1] [0] [0] [1] [] []
  gather_S2x50000x128_S690000x1_S2x690000x128_02_1_n_n_1_1_21128_wf : GatherDims.WF S2x50000x128 S690000x1 S2x690000x128 [0, 2] [1] [] [1] [] 1 ![2, 1, 128]
  scatter_S2x50000x128_S690000x1_S2x690000x128_02_1_1_1_wf : ScatterDims.WF S2x50000x128 S690000x1 S2x690000x128 [0, 2] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S2x50000x128_S690000x1_S2x690000x128_02_1_n_n_1_1_21128 : GatherDims S2x50000x128 S690000x1 S2x690000x128 where
  offsetDims := [0, 2]
  collapsedSliceDims := [1]
  operandBatchingDims := []
  startIndicesBatchingDims := []
  startIndexMap := [1]
  indexVectorDim := 1
  sliceSizes := ![2, 1, 128]
  wf := gather_S2x50000x128_S690000x1_S2x690000x128_02_1_n_n_1_1_21128_wf
def scatter_S2x50000x128_S690000x1_S2x690000x128_02_1_1_1 : ScatterDims S2x50000x128 S690000x1 S2x690000x128 where
  updateWindowDims := [0, 2]
  insertedWindowDims := [1]
  scatterDimsToOperandDims := [1]
  indexVectorDim := 1
  wf := scatter_S2x50000x128_S690000x1_S2x690000x128_02_1_1_1_wf

abbrev win0_0 : Pipeline.Window sig grid0 :=
  Pipeline.Window.ofSpec (Memref.whole main_v32) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v53) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v70) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S2x50000x128 : Shape := ⟨3, ![2, 50000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S1x640000 : Shape := ⟨2, ![1, 640000]⟩
abbrev S50000 : Shape := ⟨1, ![50000]⟩
abbrev S690000 : Shape := ⟨1, ![690000]⟩
abbrev S_ : Shape := ⟨0, ![]⟩
abbrev S690000x1 : Shape := ⟨2, ![690000, 1]⟩
abbrev S2x690000x128 : Shape := ⟨3, ![2, 690000, 128]⟩
abbrev S1x690000x1 : Shape := ⟨3, ![1, 690000, 1]⟩
abbrev S50000x128 : Shape := ⟨2, ![50000, 128]⟩
abbrev S1x1x128 : Shape := ⟨3, ![1, 1, 128]⟩

abbrev nBuf : Space → Nat
  | .hbm => 97
  | .vmem => 0
  | .smem => 0
  | _ => 0

abbrev bufTy : (tb : Table) → Fin (tcTables nBuf tb) → BufTy
  | .hbm, ⟨0, _⟩ => ⟨S2x50000x128, .f32⟩
  | .hbm, ⟨1, _⟩ => ⟨S2x640000, .i32⟩
  | .hbm, ⟨2, _⟩ => ⟨S640000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S50000, .i32⟩
  | .hbm, ⟨12, _⟩ => ⟨S690000, .i32⟩
  | .hbm, ⟨13, _⟩ => ⟨S690000, .i32⟩
  | .hbm, ⟨14, _⟩ => ⟨S_, .f32⟩
  | .hbm, ⟨15, _⟩ => ⟨S50000, .f32⟩
  | .hbm, ⟨16, _⟩ => ⟨S690000, .f32⟩
  | .hbm, ⟨17, _⟩ => ⟨S_, .f32⟩
  | .hbm, ⟨18, _⟩ => ⟨S50000, .f32⟩
  | .hbm, ⟨19, _⟩ => ⟨S690000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S690000, .i32⟩
  | .hbm, ⟨31, _⟩ => ⟨S690000, .i1⟩
  | .hbm, ⟨32, _⟩ => ⟨S_, .i32⟩
  | .hbm, ⟨33, _⟩ => ⟨S690000, .i32⟩
  | .hbm, ⟨34, _⟩ => ⟨S690000, .i32⟩
  | .hbm, ⟨35, _⟩ => ⟨S690000, .i32⟩
  | .hbm, ⟨36, _⟩ => ⟨S690000x1, .i32⟩
  | .hbm, ⟨37, _⟩ => ⟨S690000, .f32⟩
  | .hbm, ⟨38, _⟩ => ⟨S690000, .f32⟩
  | .hbm, ⟨39, _⟩ => ⟨S_, .i32⟩
  | .hbm, ⟨40, _⟩ => ⟨S690000, .i32⟩
  | .hbm, ⟨41, _⟩ => ⟨S690000, .i1⟩
  | .hbm, ⟨42, _⟩ => ⟨S_, .i32⟩
  | .hbm, ⟨43, _⟩ => ⟨S690000, .i32⟩
  | .hbm, ⟨44, _⟩ => ⟨S690000, .i32⟩
  | .hbm, ⟨45, _⟩ => ⟨S690000, .i32⟩
  | .hbm, ⟨46, _⟩ => ⟨S690000x1, .i32⟩
  | .hbm, ⟨47, _⟩ => ⟨S690000, .f32⟩
  | .hbm, ⟨48, _⟩ => ⟨S690000, .f32⟩
  | .hbm, ⟨49, _⟩ => ⟨S2x50000x128, .f32⟩
  | .hbm, ⟨50, _⟩ => ⟨S_, .i32⟩
  | .hbm, ⟨51, _⟩ => ⟨S690000, .i32⟩
  | .hbm, ⟨52, _⟩ => ⟨S690000, .i1⟩
  | .hbm, ⟨53, _⟩ => ⟨S_, .i32⟩
  | .hbm, ⟨54, _⟩ => ⟨S690000, .i32⟩
  | .hbm, ⟨55, _⟩ => ⟨S690000, .i32⟩
  | .hbm, ⟨56, _⟩ => ⟨S690000, .i32⟩
  | .hbm, ⟨57, _⟩ => ⟨S690000x1, .i32⟩
  | .hbm, ⟨58, _⟩ => ⟨S2x690000x128, .f32⟩
  | .hbm, ⟨59, _⟩ => ⟨S1x690000x1, .f32⟩
  | .hbm, ⟨60, _⟩ => ⟨S2x690000x128, .f32⟩
  | .hbm, ⟨61, _⟩ => ⟨S2x690000x128, .f32⟩
  | .hbm, ⟨62, _⟩ => ⟨S_, .f32⟩
  | .hbm, ⟨63, _⟩ => ⟨S50000x128, .f32⟩
  | .hbm, ⟨64, _⟩ => ⟨S690000x1, .i32⟩
  | .hbm, ⟨65, _⟩ => ⟨S2x50000x128, .f32⟩
  | .hbm, ⟨66, _⟩ => ⟨S2x50000x128, .f32⟩
  | .hbm, ⟨67, _⟩ => ⟨S1x1x128, .f32⟩
  | .hbm, ⟨68, _⟩ => ⟨S2x50000x128, .f32⟩
  | .hbm, ⟨69, _⟩ => ⟨S2x50000x128, .f32⟩
  | .hbm, ⟨70, _⟩ => ⟨S_, .f32⟩
  | .hbm, ⟨71, _⟩ => ⟨S2x50000x128, .f32⟩
  | .hbm, ⟨72, _⟩ => ⟨S2x50000x128, .f32⟩
  | .hbm, ⟨73, _⟩ => ⟨S2x50000x128, .f32⟩
  | .hbm, ⟨74, _⟩ => ⟨S_, .i32⟩
  | .hbm, ⟨75, _⟩ => ⟨S690000, .i32⟩
  | .hbm, ⟨76, _⟩ => ⟨S690000, .i1⟩
  | .hbm, ⟨77, _⟩ => ⟨S_, .i32⟩
  | .hbm, ⟨78, _⟩ => ⟨S690000, .i32⟩
  | .hbm, ⟨79, _⟩ => ⟨S690000, .i32⟩
  | .hbm, ⟨80, _⟩ => ⟨S690000, .i32⟩
  | .hbm, ⟨81, _⟩ => ⟨S690000x1, .i32⟩
  | .hbm, ⟨82, _⟩ => ⟨S2x690000x128, .f32⟩
  | .hbm, ⟨83, _⟩ => ⟨S1x690000x1, .f32⟩
  | .hbm, ⟨84, _⟩ => ⟨S2x690000x128, .f32⟩
  | .hbm, ⟨85, _⟩ => ⟨S2x690000x128, .f32⟩
  | .hbm, ⟨86, _⟩ => ⟨S_, .f32⟩
  | .hbm, ⟨87, _⟩ => ⟨S50000x128, .f32⟩
  | .hbm, ⟨88, _⟩ => ⟨S690000x1, .i32⟩
  | .hbm, ⟨89, _⟩ => ⟨S2x50000x128, .f32⟩
  | .hbm, ⟨90, _⟩ => ⟨S2x50000x128, .f32⟩
  | .hbm, ⟨91, _⟩ => ⟨S1x1x128, .f32⟩
  | .hbm, ⟨92, _⟩ => ⟨S2x50000x128, .f32⟩
  | .hbm, ⟨93, _⟩ => ⟨S2x50000x128, .f32⟩
  | .hbm, ⟨94, _⟩ => ⟨S_, .f32⟩
  | .hbm, ⟨95, _⟩ => ⟨S2x50000x128, .f32⟩
  | .hbm, ⟨96, _⟩ => ⟨S2x50000x128, .f32⟩
  | _, _ => ⟨S2x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_call2_cst : Ref sig .tc := ⟨.hbm, 94, rfl⟩
abbrev main_call2_v0 : Ref sig .tc := ⟨.hbm, 95, rfl⟩
abbrev main_v69 : Ref sig .tc := ⟨.hbm, 96, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S50000_S690000_d0 : Shape.Concatenates [S640000, S50000] S690000 0
  bcast_S_S50000 : S_.BroadcastsInDim S50000 (![] : Fin 0 → Fin S50000.rank)
  bcast_S690000_S690000x1_0 : S690000.BroadcastsInDim S690000x1 (![0] : Fin 1 → Fin S690000x1.rank)
  bcast_S_S690000 : S_.BroadcastsInDim S690000 (![] : Fin 0 → Fin S690000.rank)
  bcast_S690000_S1x690000x1_1 : S690000.BroadcastsInDim S1x690000x1 (![1] : Fin 1 → Fin S1x690000x1.rank)
  bcast_S1x690000x1_S2x690000x128_0_1_2 : S1x690000x1.BroadcastsInDim S2x690000x128 (![0, 1, 2] : Fin 3 → Fin S2x690000x128.rank)
  bcast_S_S50000x128 : S_.BroadcastsInDim S50000x128 (![] : Fin 0 → Fin S50000x128.rank)
  bcast_S50000x128_S2x50000x128_1_2 : S50000x128.BroadcastsInDim S2x50000x128 (![1, 2] : Fin 2 → Fin S2x50000x128.rank)
  bcast_S128_S1x1x128_2 : S128.BroadcastsInDim S1x1x128 (![2] : Fin 1 → Fin S1x1x128.rank)
  bcast_S1x1x128_S2x50000x128_0_1_2 : S1x1x128.BroadcastsInDim S2x50000x128 (![0, 1, 2] : Fin 3 → Fin S2x50000x128.rank)
  bcast_S_S2x50000x128 : S_.BroadcastsInDim S2x50000x128 (![] : Fin 0 → Fin S2x50000x128.rank)
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S2x50000x128_S128x128_S2x50000x128_2_0_01_1_n_n_wf : DotDims.WF S2x50000x128 S128x128 S2x50000x128 [2] [0] [0, 1] [1] [] []
  gather_S2x50000x128_S690000x1_S2x690000x128_02_1_n_n_1_1_21128_wf : GatherDims.WF S2x50000x128 S690000x1 S2x690000x128 [0, 2] [1] [] [1] [] 1 ![2, 1, 128]
  scatter_S2x50000x128_S690000x1_S2x690000x128_02_1_1_1_wf : ScatterDims.WF S2x50000x128 S690000x1 S2x690000x128 [0, 2] [1] [1] 1

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S2x50000x128_S128x128_S2x50000x128_2_0_01_1_n_n : DotDims S2x50000x128 S128x128 S2x50000x128 where
  lhsContracting := [2]
  rhsContracting := [0]
  lhsNonContracting := [0, 1]
  rhsNonContracting := [1]
  lhsBatch := []
  rhsBatch := []
  wf := dot_S2x50000x128_S128x128_S2x50000x128_2_0_01_1_n_n_wf
def gather_S2x50000x128_S690000x1_S2x690000x128_02_1_n_n_1_1_21128 : GatherDims S2x50000x128 S690000x1 S2x690000x128 where
  offsetDims := [0, 2]
  collapsedSliceDims := [1]
  operandBatchingDims := []
  startIndicesBatchingDims := []
  startIndexMap := [1]
  indexVectorDim := 1
  sliceSizes := ![2, 1, 128]
  wf := gather_S2x50000x128_S690000x1_S2x690000x128_02_1_n_n_1_1_21128_wf
def scatter_S2x50000x128_S690000x1_S2x690000x128_02_1_1_1 : ScatterDims S2x50000x128 S690000x1 S2x690000x128 where
  updateWindowDims := [0, 2]
  insertedWindowDims := [1]
  scatterDimsToOperandDims := [1]
  indexVectorDim := 1
  wf := scatter_S2x50000x128_S690000x1_S2x690000x128_02_1_1_1_wf

class Facts : Prop extends Facts₀ where

variable [Facts]
-- ==== Proof.Layer.lean ====
/-
  What the kernel computes, as one function of its seven arguments.

  A graph-convolution layer on 50000 nodes with 128 features, two batches, over 640000 weighted edges plus one
  self loop of weight 1 per node. With `src`, `dst` the endpoint lists (self loops appended) and `w` the edge
  weights, the degree of node `n` is the sum of `w e` over the edges `e` with `dst e = n`, its inverse square
  root is taken where the degree is positive and 0 elsewhere, and edge `e` carries the coefficient
  `dinv (src e) · w e · dinv (dst e)`. One layer sends the node features `X` to
  `max (A (X · W) + b, 0)`, where `X · W` is the product of every node's feature row with the 128 × 128 matrix
  `W` and `A` adds, into node `dst e`, the row of node `src e` times the edge's coefficient. The result is two
  such layers in a row.

  The product and the bias step are stated on the 100000 × 128 matrix of all (batch, node) rows, which is how the
  program lays them out; `A` is stated on the 2 × 50000 × 128 array.
-/
import proofs.«111858_j678604833376_1_alg».proof.Proof.Gen.KernelIdeal
import Idealize.ShloMosaic.PureOps.Ideal
import Idealize.ShloMosaic.Lib.ValueIdx

noncomputable section

namespace Cert.KernelIdeal.Layer

open Idealize.ShloMosaic Idealize.ShloMosaic.ValueIdx Cert.KernelIdeal Cert.KernelIdeal.Gen

/-- The edges' source nodes, then every node once (the self loops). -/
def srcNodes (ei : IVec S2x640000 32) : IVec S690000 32 :=
  concatenate S690000 0 [⟨S640000, shapeCast _ (extractStridedSlice S1x640000 ![0, 0] ei slices_S2x640000_S1x640000_0_0) shapeCasts_S1x640000_S640000⟩, ⟨S50000, iotaInDim S50000 32 0⟩] concatenates_S640000_S50000_S690000_d0

/-- The edges' destination nodes, then every node once. -/
def dstNodes (ei : IVec S2x640000 32) : IVec S690000 32 :=
  concatenate S690000 0 [⟨S640000, shapeCast _ (extractStridedSlice S1x640000 ![1, 0] ei slices_S2x640000_S1x640000_1_0) shapeCasts_S1x640000_S640000⟩, ⟨S50000, iotaInDim S50000 32 0⟩] concatenates_S640000_S50000_S690000_d0

/-- The edges' weights, then weight 1 for every self loop. -/
def weights (ea : FVec Ideal S640000 .f32) : FVec Ideal S690000 .f32 :=
  concatenate S690000 0 [⟨S640000, ea⟩, ⟨S50000, broadcastInDim S50000 ![] bcast_S_S50000 (constant (F := Ideal) S_ .f32 0x3F800000#32)⟩] concatenates_S640000_S50000_S690000_d0

/-- A node list with negative entries moved up by the number of nodes (the reading of an index from the end). -/
def fromEnd (ix : IVec S690000 32) : IVec S690000 32 :=
  select (cmpi .slt ix (broadcastInDim S690000 ![] bcast_S_S690000 (constantI S_ 32 0#32)))
    (addi ix (broadcastInDim S690000 ![] bcast_S_S690000 (constantI S_ 32 50000#32))) ix

/-- Every node's degree: the weights of the edges that end in it, added up. -/
def degree (ei : IVec S2x640000 32) (ea : FVec Ideal S640000 .f32) : FVec Ideal S50000 .f32 :=
  Host.scatterAdd scatter_S50000_S690000x1_S690000_n_0_0_1
    (broadcastInDim S50000 ![] bcast_S_S50000 (constant (F := Ideal) S_ .f32 0x00000000#32))
    (broadcastInDim S690000x1 ![0] bcast_S690000_S690000x1_0 (dstNodes ei)) (weights ea)

/-- The inverse square root of the degree where it is positive, 0 elsewhere. -/
def invSqrtDegree (ei : IVec S2x640000 32) (ea : FVec Ideal S640000 .f32) : FVec Ideal S50000 .f32 :=
  select (cmpf .ogt (degree ei ea) (broadcastInDim S50000 ![] bcast_S_S50000 (constant (F := Ideal) S_ .f32 0x00000000#32)))
    (Host.rsqrt (degree ei ea))
    (broadcastInDim S50000 ![] bcast_S_S50000 (id (constant (F := Ideal) S_ .f32 0x00000000#32)))

/-- Every edge's coefficient: the inverse square root of its source's degree, its weight, and that of its
    destination's degree, multiplied. -/
def coefficients (ei : IVec S2x640000 32) (ea : FVec Ideal S640000 .f32) : FVec Ideal S690000 .f32 :=
  mulf (mulf (Host.gather gather_S50000_S690000x1_S690000_n_0_n_n_0_1_1 (invSqrtDegree ei ea)
        (broadcastInDim S690000x1 ![0] bcast_S690000_S690000x1_0 (fromEnd (srcNodes ei)))) (weights ea))
    (Host.gather gather_S50000_S690000x1_S690000_n_0_n_n_0_1_1 (invSqrtDegree ei ea)
        (broadcastInDim S690000x1 ![0] bcast_S690000_S690000x1_0 (fromEnd (dstNodes ei))))

/-- The message passing step on transformed features `t`: node `dst e` receives row `src e` of `t` times
    edge `e`'s coefficient, summed over the edges, in both batches. -/
def propagate (src dst : IVec S690000 32) (coef : FVec Ideal S690000 .f32) (t : FVec Ideal S2x50000x128 .f32) :
    FVec Ideal S2x50000x128 .f32 :=
  Host.scatterAdd scatter_S2x50000x128_S690000x1_S2x690000x128_02_1_1_1
    (broadcastInDim S2x50000x128 ![1, 2] bcast_S50000x128_S2x50000x128_1_2
      (broadcastInDim S50000x128 ![] bcast_S_S50000x128 (constant (F := Ideal) S_ .f32 0x00000000#32)))
    (broadcastInDim S690000x1 ![0] bcast_S690000_S690000x1_0 dst)
    (mulf (Host.gather gather_S2x50000x128_S690000x1_S2x690000x128_02_1_n_n_1_1_21128 t
        (broadcastInDim S690000x1 ![0] bcast_S690000_S690000x1_0 (fromEnd src)))
      (broadcastInDim S2x690000x128 ![0, 1, 2] bcast_S1x690000x1_S2x690000x128_0_1_2
        (broadcastInDim S1x690000x1 ![1] bcast_S690000_S1x690000x1_1 coef)))

/-- Every row of `X` times the matrix `W`: entry `(r, q)` is the sum over `k` of `X (r, k) · W (k, q)`. -/
def rowsTimes (X : FVec Ideal S100000x128 .f32) (W : FVec Ideal S128x128 .f32) : FVec Ideal S100000x128 .f32 :=
  fun j => ∑ k : Fin 128, X (ix2 (j 0) k) * W (ix2 k (j 1))

/-- The bias row added to every row, negative entries replaced by 0. -/
def biasRelu (A : FVec Ideal S100000x128 .f32) (b : FVec Ideal S1x128 .f32) : FVec Ideal S100000x128 .f32 :=
  fun j => max (A j + b (ix2 (0 : Fin 1) (j 1))) (Ideal.ofBits .f32 0x00000000#32)

/-- One layer, as the kernel lays it out: rows flattened for the product and for the bias step, unflattened for the
    message passing. -/
def layer (src dst : IVec S690000 32) (coef : FVec Ideal S690000 .f32)
    (X : FVec Ideal S2x50000x128 .f32) (W : FVec Ideal S128x128 .f32) (b : FVec Ideal S128 .f32) : FVec Ideal S2x50000x128 .f32 :=
  shapeCast _ (biasRelu
    (shapeCast _ (propagate src dst coef
      (shapeCast _ (rowsTimes (shapeCast _ X shapeCasts_S2x50000x128_S100000x128) W) shapeCasts_S100000x128_S2x50000x128))
      shapeCasts_S2x50000x128_S100000x128)
    (shapeCast _ b shapeCasts_S128_S1x128)) shapeCasts_S100000x128_S2x50000x128

/-- The whole computation: two layers over the same edges and coefficients. -/
def result (x : FVec Ideal S2x50000x128 .f32) (ei : IVec S2x640000 32) (ea : FVec Ideal S640000 .f32)
    (W1 : FVec Ideal S128x128 .f32) (b1 : FVec Ideal S128 .f32) (W2 : FVec Ideal S128x128 .f32) (b2 : FVec Ideal S128 .f32) :
    FVec Ideal S2x50000x128 .f32 :=
  layer (srcNodes ei) (dstNodes ei) (coefficients ei ea)
    (layer (srcNodes ei) (dstNodes ei) (coefficients ei ea) x W1 b1) W2 b2

end Cert.KernelIdeal.Layer

end
-- ==== Proof.FoldEntry.lean ====
import proofs.«111858_j678604833376_1_alg».proof.Proof.Gen.KernelIdeal.Frame
import proofs.«111858_j678604833376_1_alg».proof.Proof.Layer
import Idealize.ShloMosaic.Lib.StableHlo.Run

noncomputable section

namespace Cert.KernelIdeal.Fold

open Idealize.ShloMosaic Idealize.ShloMosaic.TcCoe Idealize.ShloMosaic.ValueIdx Idealize.SL.Sem
open Idealize.ShloMosaic.Pipeline (Dat)
open Cert.KernelIdeal Cert.KernelIdeal.Gen

/-! The stretch before the first kernel region is three straight lines of operations. Each line is read on its own, over
    any contents `V` it may start from: what the buffers of interest hold after it, as a term over what `V` holds at the
    buffers the line reads. The three readings are then chained from the launch contents. -/
/-- The third line ends with the product of the two gathered inverse square roots and the weight, the gathers read at the
    node lists with indices counted from the end moved up. -/
private theorem third_coef (V : Valuation τ sig (Elt Ideal)) :
    @Eq (FVec Ideal S690000 .f32) (StableHlo.after hostOps0_2 V (Proc.devRef .tc main_v31))
      <| mulf (mulf (Host.gather gather_S50000_S690000x1_S690000_n_0_n_n_0_1_1 (V (Proc.devRef .tc main_v15) : FVec Ideal S50000 .f32)
            (broadcastInDim S690000x1 ![0] bcast_S690000_S690000x1_0 (Layer.fromEnd (V (Proc.devRef .tc main_v5))))) (V (Proc.devRef .tc main_v8) : FVec Ideal S690000 .f32))
          (Host.gather gather_S50000_S690000x1_S690000_n_0_n_n_0_1_1 (V (Proc.devRef .tc main_v15) : FVec Ideal S50000 .f32)
            (broadcastInDim S690000x1 ![0] bcast_S690000_S690000x1_0 (Layer.fromEnd (V (Proc.devRef .tc main_v6))))) := by
  dsimp only [hostOps0_2]
  after_results_simp
  unfold Layer.fromEnd
  rfl

/-- The second line selects, where the comparison holds, the inverse square root, and the constant spread over the nodes elsewhere. -/
private theorem second_invSqrt (V : Valuation τ sig (Elt Ideal)) :
    StableHlo.after hostOps0_1 V (Proc.devRef .tc main_v15)
      = select (V (Proc.devRef .tc main_v13)) (V (Proc.devRef .tc main_v14))
          (broadcastInDim S50000 ![] bcast_S_S50000 (id (V (Proc.devRef .tc main_cst_2)))) := by
  dsimp only [hostOps0_1]
  after_results
  rfl

/-- The second line leaves the node lists and the weights as they were. -/
private theorem second_src (V : Valuation τ sig (Elt Ideal)) :
    StableHlo.after hostOps0_1 V (Proc.devRef .tc main_v5) = V (Proc.devRef .tc main_v5) := by
  dsimp only [hostOps0_1]
  after_results

private theorem second_dst (V : Valuation τ sig (Elt Ideal)) :
    StableHlo.after hostOps0_1 V (Proc.devRef .tc main_v6) = V (Proc.devRef .tc main_v6) := by
  dsimp only [hostOps0_1]
  after_results

private theorem second_weights (V : Valuation τ sig (Elt Ideal)) :
    StableHlo.after hostOps0_1 V (Proc.devRef .tc main_v8) = V (Proc.devRef .tc main_v8) := by
  dsimp only [hostOps0_1]
  after_results

/-- The first line builds the two node lists and the weights, each a given list followed by the self loops' entries. -/
private theorem first_src (V : Valuation τ sig (Elt Ideal)) :
    StableHlo.after hostOps0 V (Proc.devRef .tc main_v5) = Layer.srcNodes (V (Proc.devRef .tc main_arg1)) := by
  dsimp only [hostOps0]
  after_results
  unfold Layer.srcNodes
  rfl

private theorem first_dst (V : Valuation τ sig (Elt Ideal)) :
    StableHlo.after hostOps0 V (Proc.devRef .tc main_v6) = Layer.dstNodes (V (Proc.devRef .tc main_arg1)) := by
  dsimp only [hostOps0]
  after_results
  unfold Layer.dstNodes
  rfl

private theorem first_weights (V : Valuation τ sig (Elt Ideal)) :
    StableHlo.after hostOps0 V (Proc.devRef .tc main_v8) = Layer.weights (V (Proc.devRef .tc main_arg2)) := by
  dsimp only [hostOps0]
  after_results
  unfold Layer.weights
  rfl

/-- The first line also compares the degree with 0, takes its inverse square root, and sets a constant 0. -/
private theorem first_positive (V : Valuation τ sig (Elt Ideal)) :
    StableHlo.after hostOps0 V (Proc.devRef .tc main_v13)
      = cmpf .ogt (Layer.degree (V (Proc.devRef .tc main_arg1)) (V (Proc.devRef .tc main_arg2)))
          (broadcastInDim S50000 ![] bcast_S_S50000 (constant (F := Ideal) S_ .f32 0x00000000#32)) := by
  dsimp only [hostOps0]
  after_results
  unfold Layer.degree Layer.weights Layer.dstNodes
  rfl

private theorem first_rsqrt (V : Valuation τ sig (Elt Ideal)) :
    StableHlo.after hostOps0 V (Proc.devRef .tc main_v14)
      = Host.rsqrt (Layer.degree (V (Proc.devRef .tc main_arg1)) (V (Proc.devRef .tc main_arg2))) := by
  dsimp only [hostOps0]
  after_results
  unfold Layer.degree Layer.weights Layer.dstNodes
  rfl

private theorem first_zero (V : Valuation τ sig (Elt Ideal)) :
    StableHlo.after hostOps0 V (Proc.devRef .tc main_cst_2) = constant (F := Ideal) S_ .f32 0x00000000#32 := by
  dsimp only [hostOps0]
  after_results

variable (m : (ℓ : Loc nD τ sig) → Buf (Elt Ideal) ℓ) (ρ : Dev nD → PrngReg)

/-! What the first kernel region finds: the stretch before it has computed the edge lists, the coefficients and the
    flattened features from the arguments, and has written no argument. -/

theorem src_entry0 (c : Dev nD) : W3 m ρ c (Proc.devRef .tc main_v5) = Layer.srcNodes (m ((c.tc : Thread nD τ).loc main_arg1)) := by
  show StableHlo.after hostOps0_2 (StableHlo.after hostOps0_1 (StableHlo.after hostOps0 (W0 m ρ c))) (Proc.devRef .tc main_v5) = _
  dsimp only [hostOps0, hostOps0_1, hostOps0_2]
  after_results
  unfold Layer.srcNodes
  rfl

theorem dst_entry0 (c : Dev nD) : W3 m ρ c (Proc.devRef .tc main_v6) = Layer.dstNodes (m ((c.tc : Thread nD τ).loc main_arg1)) := by
  show StableHlo.after hostOps0_2 (StableHlo.after hostOps0_1 (StableHlo.after hostOps0 (W0 m ρ c))) (Proc.devRef .tc main_v6) = _
  dsimp only [hostOps0, hostOps0_1, hostOps0_2]
  after_results
  unfold Layer.dstNodes
  rfl

theorem coef_entry0 (c : Dev nD) :
    W3 m ρ c (Proc.devRef .tc main_v31) = Layer.coefficients (m ((c.tc : Thread nD τ).loc main_arg1)) (m ((c.tc : Thread nD τ).loc main_arg2)) := by
  show StableHlo.after hostOps0_2 (StableHlo.after hostOps0_1 (StableHlo.after hostOps0 (W0 m ρ c))) (Proc.devRef .tc main_v31) = _
  rw [third_coef, second_invSqrt, second_src, second_dst, second_weights, first_positive, first_rsqrt, first_zero, first_src, first_dst, first_weights]
  unfold Layer.coefficients Layer.invSqrtDegree
  rfl

theorem rows_entry0 (c : Dev nD) :
    W3 m ρ c (Proc.devRef .tc main_v32) = shapeCast S100000x128 (m ((c.tc : Thread nD τ).loc main_arg0)) shapeCasts_S2x50000x128_S100000x128 := by
  show StableHlo.after hostOps0_2 (StableHlo.after hostOps0_1 (StableHlo.after hostOps0 (W0 m ρ c))) (Proc.devRef .tc main_v32) = _
  dsimp only [hostOps0, hostOps0_1, hostOps0_2]
  after_results
  rfl

theorem arg3_entry0 (c : Dev nD) : W3 m ρ c (Proc.devRef .tc main_arg3) = m ((c.tc : Thread nD τ).loc main_arg3) := by
  have h2 : W3 m ρ c (Proc.devRef .tc main_arg3) = W2 m ρ c (Proc.devRef .tc main_arg3) :=
    StableHlo.after_of_forall_not_mem (b := Proc.devRef .tc main_arg3) _ _ (List.forall_iff_forall_mem.mp (by
      simp only [hostOps0_2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
  have h1 : W2 m ρ c (Proc.devRef .tc main_arg3) = W1 m ρ c (Proc.devRef .tc main_arg3) :=
    StableHlo.after_of_forall_not_mem (b := Proc.devRef .tc main_arg3) _ _ (List.forall_iff_forall_mem.mp (by
      simp only [hostOps0_1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
  have h0 : W1 m ρ c (Proc.devRef .tc main_arg3) = W0 m ρ c (Proc.devRef .tc main_arg3) :=
    StableHlo.after_of_forall_not_mem (b := Proc.devRef .tc main_arg3) _ _ (List.forall_iff_forall_mem.mp (by
      simp only [hostOps0, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
  exact h2.trans (h1.trans (h0.trans rfl))

theorem arg4_entry0 (c : Dev nD) : W3 m ρ c (Proc.devRef .tc main_arg4) = m ((c.tc : Thread nD τ).loc main_arg4) := by
  have h2 : W3 m ρ c (Proc.devRef .tc main_arg4) = W2 m ρ c (Proc.devRef .tc main_arg4) :=
    StableHlo.after_of_forall_not_mem (b := Proc.devRef .tc main_arg4) _ _ (List.forall_iff_forall_mem.mp (by
      simp only [hostOps0_2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
  have h1 : W2 m ρ c (Proc.devRef .tc main_arg4) = W1 m ρ c (Proc.devRef .tc main_arg4) :=
    StableHlo.after_of_forall_not_mem (b := Proc.devRef .tc main_arg4) _ _ (List.forall_iff_forall_mem.mp (by
      simp only [hostOps0_1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
  have h0 : W1 m ρ c (Proc.devRef .tc main_arg4) = W0 m ρ c (Proc.devRef .tc main_arg4) :=
    StableHlo.after_of_forall_not_mem (b := Proc.devRef .tc main_arg4) _ _ (List.forall_iff_forall_mem.mp (by
      simp only [hostOps0, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
  exact h2.trans (h1.trans (h0.trans rfl))

theorem arg5_entry0 (c : Dev nD) : W3 m ρ c (Proc.devRef .tc main_arg5) = m ((c.tc : Thread nD τ).loc main_arg5) := by
  have h2 : W3 m ρ c (Proc.devRef .tc main_arg5) = W2 m ρ c (Proc.devRef .tc main_arg5) :=
    StableHlo.after_of_forall_not_mem (b := Proc.devRef .tc main_arg5) _ _ (List.forall_iff_forall_mem.mp (by
      simp only [hostOps0_2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
  have h1 : W2 m ρ c (Proc.devRef .tc main_arg5) = W1 m ρ c (Proc.devRef .tc main_arg5) :=
    StableHlo.after_of_forall_not_mem (b := Proc.devRef .tc main_arg5) _ _ (List.forall_iff_forall_mem.mp (by
      simp only [hostOps0_1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
  have h0 : W1 m ρ c (Proc.devRef .tc main_arg5) = W0 m ρ c (Proc.devRef .tc main_arg5) :=
    StableHlo.after_of_forall_not_mem (b := Proc.devRef .tc main_arg5) _ _ (List.forall_iff_forall_mem.mp (by
      simp only [hostOps0, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
  exact h2.trans (h1.trans (h0.trans rfl))

theorem arg6_entry0 (c : Dev nD) : W3 m ρ c (Proc.devRef .tc main_arg6) = m ((c.tc : Thread nD τ).loc main_arg6) := by
  have h2 : W3 m ρ c (Proc.devRef .tc main_arg6) = W2 m ρ c (Proc.devRef .tc main_arg6) :=
    StableHlo.after_of_forall_not_mem (b := Proc.devRef .tc main_arg6) _ _ (List.forall_iff_forall_mem.mp (by
      simp only [hostOps0_2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
  have h1 : W2 m ρ c (Proc.devRef .tc main_arg6) = W1 m ρ c (Proc.devRef .tc main_arg6) :=
    StableHlo.after_of_forall_not_mem (b := Proc.devRef .tc main_arg6) _ _ (List.forall_iff_forall_mem.mp (by
      simp only [hostOps0_1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
  have h0 : W1 m ρ c (Proc.devRef .tc main_arg6) = W0 m ρ c (Proc.devRef .tc main_arg6) :=
    StableHlo.after_of_forall_not_mem (b := Proc.devRef .tc main_arg6) _ _ (List.forall_iff_forall_mem.mp (by
      simp only [hostOps0, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))
  exact h2.trans (h1.trans (h0.trans rfl))

end Cert.KernelIdeal.Fold

end
-- ==== Proof.FoldCarry.lean ====
import proofs.«111858_j678604833376_1_alg».proof.Proof.Gen.KernelIdeal.Frame
import Idealize.ShloMosaic.Lib.StableHlo.Run
import Idealize.ShloMosaic.Lib.ValueIdx

noncomputable section

namespace Cert.KernelIdeal.Fold

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! The buffers later stretches read and nothing after the first region's entry writes: the edge lists, the
    coefficients, and the three arguments not yet used. Each keeps, at the exits of the first three regions, the
    contents it had at the first region's entry. -/

/-- A stretch of host operations leaves a buffer as it was when no operation of the stretch has that buffer as
    its result: the list of operations is walked, and each operation's result is a different name. -/
local macro "stretch_keeps " ops:ident : tactic => `(tactic|
  (refine StableHlo.after_of_forall_not_mem _ _ (List.forall_iff_forall_mem.mp ?_)
   simp only [$ops:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes,
     StableHlo.binaryIndexed_writes, Finset.mem_singleton]
   repeat' apply And.intro
   all_goals exact StableHlo.devRef_ne_of_ne (by decide)))

/-! ## Across the first region: none of the six is one of its three arrays -/

theorem keep4_v5 (c : Dev nD) : W4 m ρ c (Proc.devRef .tc main_v5) = W3 m ρ c (Proc.devRef .tc main_v5) := by
  exact W4_of_ne m ρ c main_v5 (by decide)

theorem keep4_v6 (c : Dev nD) : W4 m ρ c (Proc.devRef .tc main_v6) = W3 m ρ c (Proc.devRef .tc main_v6) := by
  exact W4_of_ne m ρ c main_v6 (by decide)

theorem keep4_v31 (c : Dev nD) : W4 m ρ c (Proc.devRef .tc main_v31) = W3 m ρ c (Proc.devRef .tc main_v31) := by
  exact W4_of_ne m ρ c main_v31 (by decide)

theorem keep4_arg4 (c : Dev nD) : W4 m ρ c (Proc.devRef .tc main_arg4) = W3 m ρ c (Proc.devRef .tc main_arg4) := by
  exact W4_of_ne m ρ c main_arg4 (by decide)

theorem keep4_arg5 (c : Dev nD) : W4 m ρ c (Proc.devRef .tc main_arg5) = W3 m ρ c (Proc.devRef .tc main_arg5) := by
  exact W4_of_ne m ρ c main_arg5 (by decide)

theorem keep4_arg6 (c : Dev nD) : W4 m ρ c (Proc.devRef .tc main_arg6) = W3 m ρ c (Proc.devRef .tc main_arg6) := by
  exact W4_of_ne m ρ c main_arg6 (by decide)

/-! ## Across the second region: its arrays are three other buffers, and the stretch before it writes none of the six -/

theorem keep6_v5 (c : Dev nD) : W6 m ρ c (Proc.devRef .tc main_v5) = W3 m ρ c (Proc.devRef .tc main_v5) := by
  calc W6 m ρ c (Proc.devRef .tc main_v5)
    _ = W5 m ρ c (Proc.devRef .tc main_v5) := W6_of_ne m ρ c main_v5 (by decide)
    _ = W4 m ρ c (Proc.devRef .tc main_v5) := by stretch_keeps hostOps1
    _ = W3 m ρ c (Proc.devRef .tc main_v5) := keep4_v5 m ρ c

theorem keep6_v6 (c : Dev nD) : W6 m ρ c (Proc.devRef .tc main_v6) = W3 m ρ c (Proc.devRef .tc main_v6) := by
  calc W6 m ρ c (Proc.devRef .tc main_v6)
    _ = W5 m ρ c (Proc.devRef .tc main_v6) := W6_of_ne m ρ c main_v6 (by decide)
    _ = W4 m ρ c (Proc.devRef .tc main_v6) := by stretch_keeps hostOps1
    _ = W3 m ρ c (Proc.devRef .tc main_v6) := keep4_v6 m ρ c

theorem keep6_v31 (c : Dev nD) : W6 m ρ c (Proc.devRef .tc main_v31) = W3 m ρ c (Proc.devRef .tc main_v31) := by
  calc W6 m ρ c (Proc.devRef .tc main_v31)
    _ = W5 m ρ c (Proc.devRef .tc main_v31) := W6_of_ne m ρ c main_v31 (by decide)
    _ = W4 m ρ c (Proc.devRef .tc main_v31) := by stretch_keeps hostOps1
    _ = W3 m ρ c (Proc.devRef .tc main_v31) := keep4_v31 m ρ c

theorem keep6_arg4 (c : Dev nD) : W6 m ρ c (Proc.devRef .tc main_arg4) = W3 m ρ c (Proc.devRef .tc main_arg4) := by
  calc W6 m ρ c (Proc.devRef .tc main_arg4)
    _ = W5 m ρ c (Proc.devRef .tc main_arg4) := W6_of_ne m ρ c main_arg4 (by decide)
    _ = W4 m ρ c (Proc.devRef .tc main_arg4) := by stretch_keeps hostOps1
    _ = W3 m ρ c (Proc.devRef .tc main_arg4) := keep4_arg4 m ρ c

theorem keep6_arg5 (c : Dev nD) : W6 m ρ c (Proc.devRef .tc main_arg5) = W3 m ρ c (Proc.devRef .tc main_arg5) := by
  calc W6 m ρ c (Proc.devRef .tc main_arg5)
    _ = W5 m ρ c (Proc.devRef .tc main_arg5) := W6_of_ne m ρ c main_arg5 (by decide)
    _ = W4 m ρ c (Proc.devRef .tc main_arg5) := by stretch_keeps hostOps1
    _ = W3 m ρ c (Proc.devRef .tc main_arg5) := keep4_arg5 m ρ c

theorem keep6_arg6 (c : Dev nD) : W6 m ρ c (Proc.devRef .tc main_arg6) = W3 m ρ c (Proc.devRef .tc main_arg6) := by
  calc W6 m ρ c (Proc.devRef .tc main_arg6)
    _ = W5 m ρ c (Proc.devRef .tc main_arg6) := W6_of_ne m ρ c main_arg6 (by decide)
    _ = W4 m ρ c (Proc.devRef .tc main_arg6) := by stretch_keeps hostOps1
    _ = W3 m ρ c (Proc.devRef .tc main_arg6) := keep4_arg6 m ρ c

/-! ## Across the third region: five of the six are none of its arrays; the sixth is the array of an input window,
    and an input window's array stays what it was at the region's entry -/

theorem keep8_v5 (c : Dev nD) : W8 m ρ c (Proc.devRef .tc main_v5) = W3 m ρ c (Proc.devRef .tc main_v5) := by
  calc W8 m ρ c (Proc.devRef .tc main_v5)
    _ = W7 m ρ c (Proc.devRef .tc main_v5) := W8_of_ne m ρ c main_v5 (by decide)
    _ = W6 m ρ c (Proc.devRef .tc main_v5) := by stretch_keeps hostOps2
    _ = W3 m ρ c (Proc.devRef .tc main_v5) := keep6_v5 m ρ c

theorem keep8_v6 (c : Dev nD) : W8 m ρ c (Proc.devRef .tc main_v6) = W3 m ρ c (Proc.devRef .tc main_v6) := by
  calc W8 m ρ c (Proc.devRef .tc main_v6)
    _ = W7 m ρ c (Proc.devRef .tc main_v6) := W8_of_ne m ρ c main_v6 (by decide)
    _ = W6 m ρ c (Proc.devRef .tc main_v6) := by stretch_keeps hostOps2
    _ = W3 m ρ c (Proc.devRef .tc main_v6) := keep6_v6 m ρ c

theorem keep8_v31 (c : Dev nD) : W8 m ρ c (Proc.devRef .tc main_v31) = W3 m ρ c (Proc.devRef .tc main_v31) := by
  calc W8 m ρ c (Proc.devRef .tc main_v31)
    _ = W7 m ρ c (Proc.devRef .tc main_v31) := W8_of_ne m ρ c main_v31 (by decide)
    _ = W6 m ρ c (Proc.devRef .tc main_v31) := by stretch_keeps hostOps2
    _ = W3 m ρ c (Proc.devRef .tc main_v31) := keep6_v31 m ρ c

theorem keep8_arg4 (c : Dev nD) : W8 m ρ c (Proc.devRef .tc main_arg4) = W3 m ρ c (Proc.devRef .tc main_arg4) := by
  calc W8 m ρ c (Proc.devRef .tc main_arg4)
    _ = W7 m ρ c (Proc.devRef .tc main_arg4) := W8_of_ne m ρ c main_arg4 (by decide)
    _ = W6 m ρ c (Proc.devRef .tc main_arg4) := by stretch_keeps hostOps2
    _ = W3 m ρ c (Proc.devRef .tc main_arg4) := keep6_arg4 m ρ c

theorem keep8_arg5 (c : Dev nD) : W8 m ρ c (Proc.devRef .tc main_arg5) = W3 m ρ c (Proc.devRef .tc main_arg5) := by
  calc W8 m ρ c (Proc.devRef .tc main_arg5)
    _ = W7 m ρ c (Proc.devRef .tc main_arg5) := (W8_arr m ρ c 1).trans (((dat2 (V7 m ρ) c).arrAt_in 1 rfl _).trans (A_eq2 (V7 m ρ) c 1))
    _ = W6 m ρ c (Proc.devRef .tc main_arg5) := by stretch_keeps hostOps2
    _ = W3 m ρ c (Proc.devRef .tc main_arg5) := keep6_arg5 m ρ c

theorem keep8_arg6 (c : Dev nD) : W8 m ρ c (Proc.devRef .tc main_arg6) = W3 m ρ c (Proc.devRef .tc main_arg6) := by
  calc W8 m ρ c (Proc.devRef .tc main_arg6)
    _ = W7 m ρ c (Proc.devRef .tc main_arg6) := W8_of_ne m ρ c main_arg6 (by decide)
    _ = W6 m ρ c (Proc.devRef .tc main_arg6) := by stretch_keeps hostOps2
    _ = W3 m ρ c (Proc.devRef .tc main_arg6) := keep6_arg6 m ρ c

end Cert.KernelIdeal.Fold

end
-- ==== Proof.LibMatmul.lean ====
/-
  A plain matrix product read at an index, for any extents.

  A product of an `R × K` matrix with a `K × C` matrix whose dimension numbers contract the left operand's columns
  with the right operand's rows and have no batch axes is, at entry `(p, q)` and over the extended reals,
  the finite sum over `k` of `l (p, k) · r (k, q)`; into a zero accumulator nothing is added to it.
-/
import Idealize.ShloMosaic.PureOps.Ideal.Laws
import Idealize.ShloMosaic.Lib.ValueIdx

noncomputable section

namespace Cert.LibMatmul

open Idealize.ShloMosaic Idealize.ShloMosaic.ValueIdx

variable {R K C : Nat}

/-- The operand indices of a plain product at result entry `(p, q)` and contraction position `k`:
    `(p, k)` on the left, `(k, q)` on the right. -/
theorem plain_operand_indices (d : DotDims (⟨2, ![R, K]⟩ : Shape) (⟨2, ![K, C]⟩ : Shape) (⟨2, ![R, C]⟩ : Shape))
    (hlc : d.lhsContracting = [1]) (hrc : d.rhsContracting = [0])
    (hln : d.lhsNonContracting = [0]) (hrn : d.rhsNonContracting = [1])
    (hlb : d.lhsBatch = []) (hrb : d.rhsBatch = [])
    (p : Fin R) (q : Fin C) (κ : d.contr.Idx) (k : Fin K)
    (hκ : (κ ⟨0, by rw [d.rank_contr, hlc]; exact Nat.one_pos⟩).val = k.val) :
    d.lhsIdx (ix2 p q) κ = ix2 p k ∧ d.rhsIdx (ix2 p q) κ = ix2 k q := by
  have key : ∀ (j : (⟨2, ![R, C]⟩ : Shape).Idx) (n n' : Nat) (hn : n < 2) (hn' : n' < 2), n = n' →
      (j ⟨n, hn⟩).val = (j ⟨n', hn'⟩).val := fun j n n' hn hn' e => by subst e; rfl
  constructor
  · funext a; apply Fin.ext
    match a with
    | ⟨0, _⟩ =>
      show (d.lhsIdx (ix2 p q) κ (0 : Fin 2)).val = p.val
      unfold DotDims.lhsIdx
      rw [dif_neg (by rw [hlb]; exact List.not_mem_nil), dif_pos (by rw [hln]; exact List.mem_singleton.mpr rfl)]
      simp only [Fin.val_cast]
      exact (key (ix2 p q) _ 0 _ (by decide) (by simp [hlb, hln])).trans rfl
    | ⟨1, _⟩ =>
      show (d.lhsIdx (ix2 p q) κ (1 : Fin 2)).val = k.val
      exact (d.lhsIdx_val_of_single hlc (ix2 p q) κ).trans hκ
  · funext a; apply Fin.ext
    match a with
    | ⟨0, _⟩ =>
      show (d.rhsIdx (ix2 p q) κ (0 : Fin 2)).val = k.val
      exact (d.rhsIdx_val_of_single hrc (ix2 p q) κ).trans hκ
    | ⟨1, _⟩ =>
      show (d.rhsIdx (ix2 p q) κ (1 : Fin 2)).val = q.val
      unfold DotDims.rhsIdx
      rw [dif_neg (by rw [hrb]; exact List.not_mem_nil), dif_pos (by rw [hrn]; exact List.mem_singleton.mpr rfl)]
      simp only [Fin.val_cast]
      exact (key (ix2 p q) _ 1 _ (by decide) (by simp [hlb, hln, hrn])).trans rfl

/-- A plain product into the zero accumulator, at entry `(p, q)`: the sum over the contracted extent. -/
theorem matmul_rows_cols {φ₁ φ₂ : FTy} (d : DotDims (⟨2, ![R, K]⟩ : Shape) (⟨2, ![K, C]⟩ : Shape) (⟨2, ![R, C]⟩ : Shape))
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (l : FVec Ideal (⟨2, ![R, K]⟩ : Shape) φ₁) (r : FVec Ideal (⟨2, ![K, C]⟩ : Shape) φ₂)
    (p : Fin R) (q : Fin C) :
    FloatOps.matmul d prec l r (constant (⟨2, ![R, C]⟩ : Shape) .f32 0x00000000#32) (ix2 p q)
      = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  obtain ⟨el, er⟩ := plain_operand_indices d hlc hrc hln hrn hlb hrb p q ((contrEquiv1 d K hr hs).symm k) k
    (contrEquiv1_symm_val d K hr hs k)
  rw [el, er]

end Cert.LibMatmul

end
-- ==== Proof.Region0.lean ====
/-
  What the first kernel region leaves in its output array.

  The region walks a grid of ten points. Point `t` takes rows `10000·t … 10000·t + 9999` of the 100000 × 128 array
  on the left and the whole 128 × 128 matrix on the right, multiplies the row block by the matrix into a zero
  accumulator (the roundings of both operands to the narrower format change nothing over the extended reals), and
  writes the product back as the same rows of the result array. Every written block is therefore the restriction to
  its rows of ONE function of the two arrays as the region finds them — each row times the matrix — and the ten
  blocks tile the rows, so after the last point the result array is that function.
-/
import proofs.«111858_j678604833376_1_alg».proof.Proof.Gen.KernelIdeal.Frame
import proofs.«111858_j678604833376_1_alg».proof.Proof.Layer
import proofs.«111858_j678604833376_1_alg».proof.Proof.LibMatmul
import Idealize.ShloMosaic.Lib.Pipeline.Value

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen

theorem hz : (![0, 0] : Fin 2 → Nat) = fun _ => 0 := funext fun a => by fin_cases a <;> rfl

/-- The block product at one entry: the roundings to the narrower format and the cast to the same shape are the
    identity over the extended reals, and nothing is added to the zero accumulator, so entry `(p, q)` is the sum over
    `k` of the left block's `(p, k)` times the right block's `(k, q)`. -/
theorem k0_pay1_apply (x0 : Vec Ideal S10000x128 .f32) (x1 : Vec Ideal S128x128 .f32) (p : Fin 10000) (q : Fin 128) :
    k0_pay1 x0 x1 (ix2 p q) = ∑ k : Fin 128, x0 (ix2 p k) * x1 (ix2 k q) := by
  unfold k0_pay1
  refine (Cert.LibMatmul.matmul_rows_cols dot_S10000x128_S128x128_S10000x128_1_0_0_1_n_n rfl rfl rfl rfl rfl rfl none _ _ p q).trans ?_
  refine Finset.sum_congr rfl fun k _ => ?_
  rw [truncf_apply, truncf_apply, shapeCast_self]

/-- One entry of a block product is entry `i` of the whole product, once row `p` of the left block is row `i 0` of
    the whole left array and column `q` of the right block is column `i 1` of the whole right array. -/
theorem k0_pay1_eq_rowsTimes (X : FVec Ideal S100000x128 .f32) (W : FVec Ideal S128x128 .f32)
    (x0 : Vec Ideal S10000x128 .f32) (x1 : Vec Ideal S128x128 .f32) (i : S100000x128.Idx) (p : Fin 10000) (q : Fin 128)
    (hl : ∀ k : Fin 128, x0 (ix2 p k) = X (ix2 (i 0) k)) (hr : ∀ k : Fin 128, x1 (ix2 k q) = W (ix2 k (i 1))) :
    k0_pay1 x0 x1 (ix2 p q) = Layer.rowsTimes X W i := by
  rw [k0_pay1_apply]
  unfold Layer.rowsTimes
  exact Finset.sum_congr rfl fun k _ => by rw [hl k, hr k]

/-- The index maps over the grid: the left operand's block and the result's block are both row block `t`, column
    block 0; the right operand's block is always block `(0, 0)`. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of every-row-times-the-matrix of the entry contents: an element of a
    block sits in its array at block index × block size + its coordinate inside the block, the left block's rows and
    the result block's rows are the same rows, and the right block is the whole matrix. -/
theorem flushed0_2_eq (c : Dev nD) (t : Fin cfg0.N) :
    (dat0 (F := Ideal) V c).flushed 2 t
      = ((cfg0.win 2).blk t).view.read (Elt Ideal) (Layer.rowsTimes (V c main_v32) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨hLr, hLc, hRr, hRc, hOr, hOc⟩ := idx_facts0 t
  funext j
  show k0_pay1 (iblk0 V c 0 t) (iblk0 V c 1 t) j
    = Layer.rowsTimes (V c main_v32) (V c main_arg3) (((cfg0.win 2).blk t).view.emb j)
  refine (congrArg (k0_pay1 (iblk0 V c 0 t) (iblk0 V c 1 t)) (eq_ix2 (n0 := 10000) (n1 := 128) j)).trans ?_
  refine k0_pay1_eq_rowsTimes _ _ _ _ _ (j 0) (j 1) (fun k => ?_) (fun k => ?_)
  · show V c main_v32 (((cfg0.win 0).blk t).view.emb (ix2 (j 0) k)) = _
    refine congrArg (V c main_v32) ?_
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg3 (((cfg0.win 1).blk t).view.emb (ix2 k (j 1))) = _
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result array is in point `t`'s block iff, on each axis, it is in the block's range. -/
theorem mem_blk0_2 (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v33).slice (win0_2.rect t)).set ↔ _
  rw [View.set_slice_whole, Rect.mem_set_unit]
  exact Iff.rfl

/-- The ten row blocks tile the rows: row `r` is in the block of point `r / 10000`, on every column. -/
theorem covered0_2 (i : S100000x128.Idx) :
    ∃ t : Fin cfg0.N, (cfg0.win 2).flush t = true ∧ i ∈ ((cfg0.win 2).blk t).view.set := by
  have hrow : (i 0).val < 100000 := (i 0).isLt
  have hcol : (i 1).val < 128 := (i 1).isLt
  have hN : (i 0).val / 10000 < cfg0.N := by rw [show cfg0.N = 10 from N_0]; omega
  obtain ⟨-, -, -, -, hOr, hOc⟩ := idx_facts0 ⟨(i 0).val / 10000, hN⟩
  refine ⟨⟨(i 0).val / 10000, hN⟩, flush0_2 _, ?_⟩
  rw [mem_blk0_2]
  intro a
  match a with
  | ⟨0, _⟩ =>
    show win0_2.index ⟨(i 0).val / 10000, hN⟩ (0 : Fin 2) * 10000 ≤ (i 0).val
      ∧ (i 0).val < win0_2.index ⟨(i 0).val / 10000, hN⟩ (0 : Fin 2) * 10000 + 10000
    rw [hOr]; show (i 0).val / 10000 * 10000 ≤ (i 0).val ∧ (i 0).val < (i 0).val / 10000 * 10000 + 10000; omega
  | ⟨1, _⟩ =>
    show win0_2.index ⟨(i 0).val / 10000, hN⟩ (1 : Fin 2) * 128 ≤ (i 1).val
      ∧ (i 1).val < win0_2.index ⟨(i 0).val / 10000, hN⟩ (1 : Fin 2) * 128 + 128
    rw [hOc]; omega

/-- Every point writes its block of one whole-array function and the blocks cover the array, so the array ends
    holding that function. -/
theorem array_after (c : Dev nD) :
    (dat0 (F := Ideal) V c).arrAt 2 cfg0.N = Layer.rowsTimes (V c main_v32) (V c main_arg3) :=
  (dat0 (F := Ideal) V c).arrAt_eq_of_cover 2 (Layer.rowsTimes (V c main_v32) (V c main_arg3))
    (fun t _ => flushed0_2_eq V c t) covered0_2

end Cert.KernelIdeal.Region0

end
-- ==== Proof.Region1.lean ====
/-
  The second kernel region: what it leaves in its output array.

  The region walks a grid of 10 points. Point `t` takes rows `10000·t` to `10000·t + 9999` of the 100000 × 128
  input array and the whole 1 × 128 bias row, adds the bias row to every one of those rows, replaces negative entries
  by 0, and writes the result back as the same rows of the output array. Each written block is the restriction of one
  function of the whole arrays, and the ten blocks tile the rows, so the array after the run is that function.
-/
import proofs.«111858_j678604833376_1_alg».proof.Proof.Gen.KernelIdeal.Frame
import proofs.«111858_j678604833376_1_alg».proof.Proof.Layer
import Idealize.ShloMosaic.Lib.Pipeline.Value
import Idealize.ShloMosaic.Lib.ValueLayout

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-buffer access, as the constant function. -/
theorem offsets_zero1 : (![0, 0] : Fin 2 → Nat) = fun _ => 0 := funext fun a => by
  match a with
  | ⟨0, _⟩ => rfl
  | ⟨1, _⟩ => rfl

/-- The body's result at row `p`, column `q` of a block: the block's entry plus the bias row's entry of
    column `q`, or 0 when that sum is negative. The two reshapes are to the same shape, the row is repeated
    down the rows, and the sum, the constant and the maximum are taken entry by entry. -/
theorem payload1_apply (x0 : Vec Ideal S10000x128 .f32) (x1 : Vec Ideal S1x128 .f32) (p : Fin 10000) (q : Fin 128) :
    k1_pay1 x0 x1 (ix2 p q) = max (x0 (ix2 p q) + x1 (ix2 (0 : Fin 1) q)) (Ideal.ofBits .f32 0x00000000#32) := by
  unfold k1_pay1
  rw [maximumf_apply, addf_apply, broadcast_apply, shapeCast_self, shapeCast_self]
  rw [broadcastTo_1b_ab_apply]
  rfl

/-- So when the block's entry at `(p, q)` is the array's entry at `i`, and the bias block's entry of column `q`
    is the bias row's entry of `i`'s column, the body's result at `(p, q)` is the layer's bias step at `i`. -/
theorem payload1_eq_biasRelu (A : FVec Ideal S100000x128 .f32) (b : FVec Ideal S1x128 .f32)
    (x0 : Vec Ideal S10000x128 .f32) (x1 : Vec Ideal S1x128 .f32) (p : Fin 10000) (q : Fin 128) (i : S100000x128.Idx)
    (h0 : x0 (ix2 p q) = A i) (h1 : x1 (ix2 (0 : Fin 1) q) = b (ix2 (0 : Fin 1) (i 1))) :
    k1_pay1 x0 x1 (ix2 p q) = Layer.biasRelu A b i := by
  rw [payload1_apply, h0, h1]
  rfl

/-- The index maps over the grid: the input rows' block is the output rows' block, both in block column 0; the
    bias row's block is always block (0, 0); and the output's block row is at most 9. -/
theorem index_maps1 : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) ≤ 9 :=
  (by decide +kernel : ∀ t : Fin grid1.N, _)

/-- Every one of the ten row blocks of the output is some grid point's. -/
theorem index_onto1 : ∀ q0 : Fin 10, ∃ t : Fin cfg1.N, win1_2.index t = ![q0.val, 0] :=
  (by decide +kernel : ∀ q0 : Fin 10, ∃ t : Fin grid1.N, win1_2.index t = ![q0.val, 0])

/-- What grid point `t` writes back is the bias step of the whole arrays, restricted to `t`'s block of rows: an
    entry of a block sits in its array at block index times block size plus the entry's place inside the block, on
    each axis; the input block and the output block have the same block index, and the bias block is the whole row. -/
theorem flushed1_2_eq (c : Dev nD) (t : Fin cfg1.N) :
    (dat1 V c).flushed 2 t = ((cfg1.win 2).blk t).view.read (Elt Ideal) (Layer.biasRelu (V c main_v49) (V c main_v50)) := by
  show (cfg1.win 2).cut (grid1.coords t) ((dat1 V c).after 2 t) = _
  rw [after1_2]
  unfold out1_2
  rw [View.canon_unit_zero offsets_zero1]
  simp only [View.ld_unit_zero (S := S10000x128) offsets_zero1, View.ld_unit_zero (S := S1x128) offsets_zero1]
  obtain ⟨e0, e1, e2, e3, e4, e5⟩ := index_maps1 t
  funext j
  show k1_pay1 (iblk1 V c 0 t) (iblk1 V c 1 t) j = Layer.biasRelu (V c main_v49) (V c main_v50) (((cfg1.win 2).blk t).view.emb j)
  refine (congrArg (k1_pay1 (iblk1 V c 0 t) (iblk1 V c 1 t)) (eq_ix2 (n0 := 10000) (n1 := 128) j)).trans ?_
  refine payload1_eq_biasRelu _ _ _ _ (j 0) (j 1) _ ?_ ?_
  · show V c main_v49 (((cfg1.win 0).blk t).view.emb (ix2 (j 0) (j 1))) = V c main_v49 (((cfg1.win 2).blk t).view.emb j)
    refine congrArg (V c main_v49) ?_
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  · show V c main_v50 (((cfg1.win 1).blk t).view.emb (ix2 (0 : Fin 1) (j 1))) = V c main_v50 (ix2 (0 : Fin 1) (((cfg1.win 2).blk t).view.emb j 1))
    refine congrArg (V c main_v50) ?_
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega

/-- An index of the output array is in point `t`'s block iff each coordinate is in the block's range on its axis. -/
theorem mem_block1_2 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v51).slice (win1_2.rect t)).set ↔ _
  rw [View.set_slice_whole, Rect.mem_set_unit]
  exact Iff.rfl

/-- The ten blocks of 10000 rows tile the 100000 rows: row `r` is in block `r / 10000`, which some point writes back. -/
theorem covered1_2 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := index_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block1_2]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- Every point writes back its block of one whole-array function and the blocks cover the array, so after the run
    the output array is that function: the bias row added to every row, negative entries replaced by 0. -/
theorem array_after (c : Dev nD) :
    (dat1 (F := Ideal) V c).arrAt 2 cfg1.N = Layer.biasRelu (V c main_v49) (V c main_v50) :=
  (dat1 V c).arrAt_eq_of_cover 2 _ (fun t _ => flushed1_2_eq V c t) covered1_2

end Cert.KernelIdeal.Region1

end
-- ==== Proof.Region2.lean ====
/-
  What the third kernel region leaves in its output array.

  The region walks a grid of ten points. Point `t` takes rows `10000·t … 10000·t + 9999` of the 100000 × 128 array
  on the left and the whole 128 × 128 matrix on the right, multiplies the row block by the matrix into a zero
  accumulator (the roundings of both operands to the narrower format change nothing over the extended reals), and
  writes the product back as the same rows of the result array. Every written block is therefore the restriction to
  its rows of ONE function of the two arrays as the region finds them — each row times the matrix — and the ten
  blocks tile the rows, so after the last point the result array is that function.
-/
import proofs.«111858_j678604833376_1_alg».proof.Proof.Gen.KernelIdeal.Frame
import proofs.«111858_j678604833376_1_alg».proof.Proof.Layer
import proofs.«111858_j678604833376_1_alg».proof.Proof.LibMatmul
import Idealize.ShloMosaic.Lib.Pipeline.Value

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen

theorem hz : (![0, 0] : Fin 2 → Nat) = fun _ => 0 := funext fun a => by fin_cases a <;> rfl

/-- The block product at one entry: the roundings to the narrower format and the cast to the same shape are the
    identity over the extended reals, and nothing is added to the zero accumulator, so entry `(p, q)` is the sum over
    `k` of the left block's `(p, k)` times the right block's `(k, q)`. -/
theorem k2_pay1_apply (x0 : Vec Ideal S10000x128 .f32) (x1 : Vec Ideal S128x128 .f32) (p : Fin 10000) (q : Fin 128) :
    k2_pay1 x0 x1 (ix2 p q) = ∑ k : Fin 128, x0 (ix2 p k) * x1 (ix2 k q) := by
  unfold k2_pay1
  refine (Cert.LibMatmul.matmul_rows_cols dot_S10000x128_S128x128_S10000x128_1_0_0_1_n_n rfl rfl rfl rfl rfl rfl none _ _ p q).trans ?_
  refine Finset.sum_congr rfl fun k _ => ?_
  rw [truncf_apply, truncf_apply, shapeCast_self]

/-- One entry of a block product is entry `i` of the whole product, once row `p` of the left block is row `i 0` of
    the whole left array and column `q` of the right block is column `i 1` of the whole right array. -/
theorem k2_pay1_eq_rowsTimes (X : FVec Ideal S100000x128 .f32) (W : FVec Ideal S128x128 .f32)
    (x0 : Vec Ideal S10000x128 .f32) (x1 : Vec Ideal S128x128 .f32) (i : S100000x128.Idx) (p : Fin 10000) (q : Fin 128)
    (hl : ∀ k : Fin 128, x0 (ix2 p k) = X (ix2 (i 0) k)) (hr : ∀ k : Fin 128, x1 (ix2 k q) = W (ix2 k (i 1))) :
    k2_pay1 x0 x1 (ix2 p q) = Layer.rowsTimes X W i := by
  rw [k2_pay1_apply]
  unfold Layer.rowsTimes
  exact Finset.sum_congr rfl fun k _ => by rw [hl k, hr k]

/-- The index maps over the grid: the left operand's block and the result's block are both row block `t`, column
    block 0; the right operand's block is always block `(0, 0)`. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

variable (V : (c : Dev nD) → (b : Ref sig .tc) → Buf (Elt Ideal) ((c : Thread nD τ).loc b))

/-- What point `t` writes back is block `t` of every-row-times-the-matrix of the entry contents: an element of a
    block sits in its array at block index × block size + its coordinate inside the block, the left block's rows and
    the result block's rows are the same rows, and the right block is the whole matrix. -/
theorem flushed2_2_eq (c : Dev nD) (t : Fin cfg2.N) :
    (dat2 (F := Ideal) V c).flushed 2 t
      = ((cfg2.win 2).blk t).view.read (Elt Ideal) (Layer.rowsTimes (V c main_v53) (V c main_arg5)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x128) hz]
  obtain ⟨hLr, hLc, hRr, hRc, hOr, hOc⟩ := idx_facts2 t
  funext j
  show k2_pay1 (iblk2 V c 0 t) (iblk2 V c 1 t) j
    = Layer.rowsTimes (V c main_v53) (V c main_arg5) (((cfg2.win 2).blk t).view.emb j)
  refine (congrArg (k2_pay1 (iblk2 V c 0 t) (iblk2 V c 1 t)) (eq_ix2 (n0 := 10000) (n1 := 128) j)).trans ?_
  refine k2_pay1_eq_rowsTimes _ _ _ _ _ (j 0) (j 1) (fun k => ?_) (fun k => ?_)
  · show V c main_v53 (((cfg2.win 0).blk t).view.emb (ix2 (j 0) k)) = _
    refine congrArg (V c main_v53) ?_
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * k.val = k.val; omega
  · show V c main_arg5 (((cfg2.win 1).blk t).view.emb (ix2 k (j 1))) = _
    refine congrArg (V c main_arg5) ?_
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the result array is in point `t`'s block iff, on each axis, it is in the block's range. -/
theorem mem_blk2_2 (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v54).slice (win2_2.rect t)).set ↔ _
  rw [View.set_slice_whole, Rect.mem_set_unit]
  exact Iff.rfl

/-- The ten row blocks tile the rows: row `r` is in the block of point `r / 10000`, on every column. -/
theorem covered2_2 (i : S100000x128.Idx) :
    ∃ t : Fin cfg2.N, (cfg2.win 2).flush t = true ∧ i ∈ ((cfg2.win 2).blk t).view.set := by
  have hrow : (i 0).val < 100000 := (i 0).isLt
  have hcol : (i 1).val < 128 := (i 1).isLt
  have hN : (i 0).val / 10000 < cfg2.N := by rw [show cfg2.N = 10 from N_2]; omega
  obtain ⟨-, -, -, -, hOr, hOc⟩ := idx_facts2 ⟨(i 0).val / 10000, hN⟩
  refine ⟨⟨(i 0).val / 10000, hN⟩, flush2_2 _, ?_⟩
  rw [mem_blk2_2]
  intro a
  match a with
  | ⟨0, _⟩ =>
    show win2_2.index ⟨(i 0).val / 10000, hN⟩ (0 : Fin 2) * 10000 ≤ (i 0).val
      ∧ (i 0).val < win2_2.index ⟨(i 0).val / 10000, hN⟩ (0 : Fin 2) * 10000 + 10000
    rw [hOr]; show (i 0).val / 10000 * 10000 ≤ (i 0).val ∧ (i 0).val < (i 0).val / 10000 * 10000 + 10000; omega
  | ⟨1, _⟩ =>
    show win2_2.index ⟨(i 0).val / 10000, hN⟩ (1 : Fin 2) * 128 ≤ (i 1).val
      ∧ (i 1).val < win2_2.index ⟨(i 0).val / 10000, hN⟩ (1 : Fin 2) * 128 + 128
    rw [hOc]; omega

/-- Every point writes its block of one whole-array function and the blocks cover the array, so the array ends
    holding that function. -/
theorem array_after (c : Dev nD) :
    (dat2 (F := Ideal) V c).arrAt 2 cfg2.N = Layer.rowsTimes (V c main_v53) (V c main_arg5) :=
  (dat2 (F := Ideal) V c).arrAt_eq_of_cover 2 (Layer.rowsTimes (V c main_v53) (V c main_arg5))
    (fun t _ => flushed2_2_eq V c t) covered2_2

end Cert.KernelIdeal.Region2

end
-- ==== Proof.Region3.lean ====
/-
  The fourth kernel region: what it leaves in its output array.

  The region walks a grid of 10 points. Point `t` takes rows `10000·t` to `10000·t + 9999` of the 100000 × 128
  input array and the whole 1 × 128 bias row, adds the bias row to every one of those rows, replaces negative entries
  by 0, and writes the result back as the same rows of the output array. Each written block is the restriction of one
  function of the whole arrays, and the ten blocks tile the rows, so the array after the run is that function.
-/
import proofs.«111858_j678604833376_1_alg».proof.Proof.Gen.KernelIdeal.Frame
import proofs.«111858_j678604833376_1_alg».proof.Proof.Layer
import Idealize.ShloMosaic.Lib.Pipeline.Value
import Idealize.ShloMosaic.Lib.ValueLayout

noncomputable section

namespace Cert.KernelIdeal.Region3

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-buffer access, as the constant function. -/
theorem offsets_zero3 : (![0, 0] : Fin 2 → Nat) = fun _ => 0 := funext fun a => by
  match a with
  | ⟨0, _⟩ => rfl
  | ⟨1, _⟩ => rfl

/-- The body's result at row `p`, column `q` of a block: the block's entry plus the bias row's entry of
    column `q`, or 0 when that sum is negative. The two reshapes are to the same shape, the row is repeated
    down the rows, and the sum, the constant and the maximum are taken entry by entry. -/
theorem payload3_apply (x0 : Vec Ideal S10000x128 .f32) (x1 : Vec Ideal S1x128 .f32) (p : Fin 10000) (q : Fin 128) :
    k3_pay1 x0 x1 (ix2 p q) = max (x0 (ix2 p q) + x1 (ix2 (0 : Fin 1) q)) (Ideal.ofBits .f32 0x00000000#32) := by
  unfold k3_pay1
  rw [maximumf_apply, addf_apply, broadcast_apply, shapeCast_self, shapeCast_self]
  rw [broadcastTo_1b_ab_apply]
  rfl

/-- So when the block's entry at `(p, q)` is the array's entry at `i`, and the bias block's entry of column `q`
    is the bias row's entry of `i`'s column, the body's result at `(p, q)` is the layer's bias step at `i`. -/
theorem payload3_eq_biasRelu (A : FVec Ideal S100000x128 .f32) (b : FVec Ideal S1x128 .f32)
    (x0 : Vec Ideal S10000x128 .f32) (x1 : Vec Ideal S1x128 .f32) (p : Fin 10000) (q : Fin 128) (i : S100000x128.Idx)
    (h0 : x0 (ix2 p q) = A i) (h1 : x1 (ix2 (0 : Fin 1) q) = b (ix2 (0 : Fin 1) (i 1))) :
    k3_pay1 x0 x1 (ix2 p q) = Layer.biasRelu A b i := by
  rw [payload3_apply, h0, h1]
  rfl

/-- The index maps over the grid: the input rows' block is the output rows' block, both in block column 0; the
    bias row's block is always block (0, 0); and the output's block row is at most 9. -/
theorem index_maps3 : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0
    ∧ win3_2.index t (0 : Fin 2) ≤ 9 :=
  (by decide +kernel : ∀ t : Fin grid3.N, _)

/-- Every one of the ten row blocks of the output is some grid point's. -/
theorem index_onto3 : ∀ q0 : Fin 10, ∃ t : Fin cfg3.N, win3_2.index t = ![q0.val, 0] :=
  (by decide +kernel : ∀ q0 : Fin 10, ∃ t : Fin grid3.N, win3_2.index t = ![q0.val, 0])

/-- What grid point `t` writes back is the bias step of the whole arrays, restricted to `t`'s block of rows: an
    entry of a block sits in its array at block index times block size plus the entry's place inside the block, on
    each axis; the input block and the output block have the same block index, and the bias block is the whole row. -/
theorem flushed3_2_eq (c : Dev nD) (t : Fin cfg3.N) :
    (dat3 V c).flushed 2 t = ((cfg3.win 2).blk t).view.read (Elt Ideal) (Layer.biasRelu (V c main_v70) (V c main_v71)) := by
  show (cfg3.win 2).cut (grid3.coords t) ((dat3 V c).after 2 t) = _
  rw [after3_2]
  unfold out3_2
  rw [View.canon_unit_zero offsets_zero3]
  simp only [View.ld_unit_zero (S := S10000x128) offsets_zero3, View.ld_unit_zero (S := S1x128) offsets_zero3]
  obtain ⟨e0, e1, e2, e3, e4, e5⟩ := index_maps3 t
  funext j
  show k3_pay1 (iblk3 V c 0 t) (iblk3 V c 1 t) j = Layer.biasRelu (V c main_v70) (V c main_v71) (((cfg3.win 2).blk t).view.emb j)
  refine (congrArg (k3_pay1 (iblk3 V c 0 t) (iblk3 V c 1 t)) (eq_ix2 (n0 := 10000) (n1 := 128) j)).trans ?_
  refine payload3_eq_biasRelu _ _ _ _ (j 0) (j 1) _ ?_ ?_
  · show V c main_v70 (((cfg3.win 0).blk t).view.emb (ix2 (j 0) (j 1))) = V c main_v70 (((cfg3.win 2).blk t).view.emb j)
    refine congrArg (V c main_v70) ?_
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * (j 1).val = win3_2.index t (1 : Fin 2) * 128 + 1 * (j 1).val; omega
  · show V c main_v71 (((cfg3.win 1).blk t).view.emb (ix2 (0 : Fin 1) (j 1))) = V c main_v71 (ix2 (0 : Fin 1) (((cfg3.win 2).blk t).view.emb j 1))
    refine congrArg (V c main_v71) ?_
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega

/-- An index of the output array is in point `t`'s block iff each coordinate is in the block's range on its axis. -/
theorem mem_block3_2 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v72).slice (win3_2.rect t)).set ↔ _
  rw [View.set_slice_whole, Rect.mem_set_unit]
  exact Iff.rfl

/-- The ten blocks of 10000 rows tile the 100000 rows: row `r` is in block `r / 10000`, which some point writes back. -/
theorem covered3_2 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := index_onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_block3_2]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- Every point writes back its block of one whole-array function and the blocks cover the array, so after the run
    the output array is that function: the bias row added to every row, negative entries replaced by 0. -/
theorem array_after (c : Dev nD) :
    (dat3 (F := Ideal) V c).arrAt 2 cfg3.N = Layer.biasRelu (V c main_v70) (V c main_v71) :=
  (dat3 V c).arrAt_eq_of_cover 2 _ (fun t _ => flushed3_2_eq V c t) covered3_2

end Cert.KernelIdeal.Region3

end
-- ==== Proof.FoldResult.lean ====
import proofs.«111858_j678604833376_1_alg».proof.Proof.Gen.KernelIdeal.Frame
import proofs.«111858_j678604833376_1_alg».proof.Proof.Layer
import proofs.«111858_j678604833376_1_alg».proof.Proof.FoldEntry
import proofs.«111858_j678604833376_1_alg».proof.Proof.FoldCarry
import proofs.«111858_j678604833376_1_alg».proof.Proof.Region0
import proofs.«111858_j678604833376_1_alg».proof.Proof.Region1
import proofs.«111858_j678604833376_1_alg».proof.Proof.Region2
import proofs.«111858_j678604833376_1_alg».proof.Proof.Region3
import Idealize.ShloMosaic.Lib.StableHlo.Run

noncomputable section

namespace Cert.KernelIdeal.Fold

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! The result buffer, read back boundary by boundary: the last stretch unflattens the fourth region's output; a
    bias region's output is the bias step of the two arrays it was entered with; the stretch before it makes those
    from the product region's output by the message passing and a flattening, and from a bias argument; a product
    region's output is the rows of its first array times its second. The edge lists, the coefficients and the
    unused arguments are carried unchanged from the first region's entry, where they are the functions of the
    arguments the specification names. -/

open Idealize.ShloMosaic.StableHlo

/-! ## What each stretch between the regions computes -/

/-- The last stretch unflattens the rows. -/
theorem after_last_region (c : Dev nD) :
    W11 m ρ c (Proc.devRef .tc main_v73) = shapeCast S2x50000x128 (W10 m ρ c (Proc.devRef .tc main_v72)) shapeCasts_S100000x128_S2x50000x128 := by
  show StableHlo.after hostOps4 (W10 m ρ c) (Proc.devRef .tc main_v73) = _
  after_results_simp
  rfl

set_option maxHeartbeats 4000000 in
/-- Before the fourth region: the third region's rows, unflattened, sent along the edges, flattened again. -/
theorem rows_entry3 (c : Dev nD) :
    W9 m ρ c (Proc.devRef .tc main_v70) = shapeCast S100000x128 (Layer.propagate (W8 m ρ c (Proc.devRef .tc main_v5)) (W8 m ρ c (Proc.devRef .tc main_v6))
      (W8 m ρ c (Proc.devRef .tc main_v31)) (shapeCast S2x50000x128 (W8 m ρ c (Proc.devRef .tc main_v54)) shapeCasts_S100000x128_S2x50000x128))
      shapeCasts_S2x50000x128_S100000x128 := by
  show StableHlo.after hostOps3 (W8 m ρ c) (Proc.devRef .tc main_v70) = _
  after_results_simp
  rfl

set_option maxHeartbeats 4000000 in
/-- and the second bias as one row. -/
theorem bias_entry3 (c : Dev nD) :
    W9 m ρ c (Proc.devRef .tc main_v71) = shapeCast S1x128 (W8 m ρ c (Proc.devRef .tc main_arg6)) shapeCasts_S128_S1x128 := by
  show StableHlo.after hostOps3 (W8 m ρ c) (Proc.devRef .tc main_v71) = _
  after_results_simp
  rfl

/-- Before the third region: the second region's rows unflattened and flattened again. -/
theorem rows_entry2 (c : Dev nD) :
    W7 m ρ c (Proc.devRef .tc main_v53) = shapeCast S100000x128 (shapeCast S2x50000x128 (W6 m ρ c (Proc.devRef .tc main_v51)) shapeCasts_S100000x128_S2x50000x128)
      shapeCasts_S2x50000x128_S100000x128 := by
  show StableHlo.after hostOps2 (W6 m ρ c) (Proc.devRef .tc main_v53) = _
  after_results_simp
  rfl

/-- The second matrix is not touched by that stretch. -/
theorem matrix_entry2 (c : Dev nD) : W7 m ρ c (Proc.devRef .tc main_arg5) = W6 m ρ c (Proc.devRef .tc main_arg5) := by
  show StableHlo.after hostOps2 (W6 m ρ c) (Proc.devRef .tc main_arg5) = _
  after_results_simp

set_option maxHeartbeats 4000000 in
/-- Before the second region: the first region's rows, unflattened, sent along the edges, flattened again. -/
theorem rows_entry1 (c : Dev nD) :
    W5 m ρ c (Proc.devRef .tc main_v49) = shapeCast S100000x128 (Layer.propagate (W4 m ρ c (Proc.devRef .tc main_v5)) (W4 m ρ c (Proc.devRef .tc main_v6))
      (W4 m ρ c (Proc.devRef .tc main_v31)) (shapeCast S2x50000x128 (W4 m ρ c (Proc.devRef .tc main_v33)) shapeCasts_S100000x128_S2x50000x128))
      shapeCasts_S2x50000x128_S100000x128 := by
  show StableHlo.after hostOps1 (W4 m ρ c) (Proc.devRef .tc main_v49) = _
  after_results_simp
  rfl

set_option maxHeartbeats 4000000 in
/-- and the first bias as one row. -/
theorem bias_entry1 (c : Dev nD) :
    W5 m ρ c (Proc.devRef .tc main_v50) = shapeCast S1x128 (W4 m ρ c (Proc.devRef .tc main_arg4)) shapeCasts_S128_S1x128 := by
  show StableHlo.after hostOps1 (W4 m ρ c) (Proc.devRef .tc main_v50) = _
  after_results_simp
  rfl

/-! ## What each region leaves in its output array -/

theorem exit3 (c : Dev nD) :
    W10 m ρ c (Proc.devRef .tc main_v72) = Layer.biasRelu (W9 m ρ c (Proc.devRef .tc main_v70)) (W9 m ρ c (Proc.devRef .tc main_v71)) :=
  (W10_arr m ρ c 2).trans (Region3.array_after (V9 m ρ) c)

theorem exit2 (c : Dev nD) :
    W8 m ρ c (Proc.devRef .tc main_v54) = Layer.rowsTimes (W7 m ρ c (Proc.devRef .tc main_v53)) (W7 m ρ c (Proc.devRef .tc main_arg5)) :=
  (W8_arr m ρ c 2).trans (Region2.array_after (V7 m ρ) c)

theorem exit1 (c : Dev nD) :
    W6 m ρ c (Proc.devRef .tc main_v51) = Layer.biasRelu (W5 m ρ c (Proc.devRef .tc main_v49)) (W5 m ρ c (Proc.devRef .tc main_v50)) :=
  (W6_arr m ρ c 2).trans (Region1.array_after (V5 m ρ) c)

theorem exit0 (c : Dev nD) :
    W4 m ρ c (Proc.devRef .tc main_v33) = Layer.rowsTimes (W3 m ρ c (Proc.devRef .tc main_v32)) (W3 m ρ c (Proc.devRef .tc main_arg3)) :=
  (W4_arr m ρ c 2).trans (Region0.array_after (V3 m ρ) c)

/-! ## The chain -/

/-- The result buffer at the last boundary is the two-layer function of the arguments. -/
theorem result_eq (c : Dev nD) :
    W11 m ρ c (Proc.devRef .tc main_v73)
      = Layer.result (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) := by
  rw [after_last_region, exit3, rows_entry3, bias_entry3, exit2, rows_entry2, matrix_entry2, exit1, rows_entry1, bias_entry1, exit0,
    keep8_v5, keep8_v6, keep8_v31, keep8_arg6, keep6_arg5, keep4_v5, keep4_v6, keep4_v31, keep4_arg4,
    src_entry0, dst_entry0, coef_entry0, rows_entry0, arg3_entry0, arg4_entry0, arg5_entry0, arg6_entry0]
  rfl

end Cert.KernelIdeal.Fold

end
-- ==== Proof.RefLayer.lean ====
import proofs.«111858_j678604833376_1_alg».proof.Proof.Layer
import proofs.«111858_j678604833376_1_alg».proof.Proof.Gen.ReferenceIdeal.Read

noncomputable section

namespace Cert.ReferenceIdeal.Layer

open Idealize.ShloMosaic Idealize.ShloMosaic.TcCoe Idealize.ShloMosaic.ValueIdx Idealize.SL.Sem
open Cert.ReferenceIdeal Cert.ReferenceIdeal.Gen

/-- One layer as the reference computes it: the features times `W` as one contraction over the feature axis, the
    same message passing, the bias added along the feature axis, negative entries replaced by 0. -/
def layer (src dst : IVec S690000 32) (coef : FVec Ideal S690000 .f32)
    (X : FVec Ideal S2x50000x128 .f32) (W : FVec Ideal S128x128 .f32) (b : FVec Ideal S128 .f32) : FVec Ideal S2x50000x128 .f32 :=
  maximumf
    (addf (Cert.KernelIdeal.Layer.propagate src dst coef
        (Host.dotGeneral dot_S2x50000x128_S128x128_S2x50000x128_2_0_01_1_n_n none X W))
      (broadcastInDim S2x50000x128 ![0, 1, 2] bcast_S1x1x128_S2x50000x128_0_1_2
        (broadcastInDim S1x1x128 ![2] bcast_S128_S1x1x128_2 b)))
    (broadcastInDim S2x50000x128 ![] bcast_S_S2x50000x128 (constant (F := Ideal) S_ .f32 0x00000000#32))

/-! The reference spells out the edge lists, the weights, the degree, its inverse square root and the
    coefficients stage by stage; each stage is the same operation as the corresponding function of the
    specification, so the equalities below hold by unfolding the stages one group at a time. -/

/-- The source list: the first row of the edge array, then every node once. -/
private theorem src_eq (x1 : IVec S2x640000 32) :
    Read.val_main_v5 (F := Ideal) x1 = Cert.KernelIdeal.Layer.srcNodes x1 := by
  unfold Read.val_main_v5 Read.val_main_v1 Read.val_main_v0 Read.val_main_v4 Cert.KernelIdeal.Layer.srcNodes
  rfl

/-- The destination list: the second row of the edge array, then every node once. -/
private theorem dst_eq (x1 : IVec S2x640000 32) :
    Read.val_main_v6 (F := Ideal) x1 = Cert.KernelIdeal.Layer.dstNodes x1 := by
  unfold Read.val_main_v6 Read.val_main_v3 Read.val_main_v2 Read.val_main_v4 Cert.KernelIdeal.Layer.dstNodes
  rfl

/-- The weights: the given ones, then 1 for every self loop. -/
private theorem weights_eq (x2 : FVec Ideal S640000 .f32) :
    Read.val_main_v8 (F := Ideal) x2 = Cert.KernelIdeal.Layer.weights x2 := by
  unfold Read.val_main_v8 Read.val_main_v7 Read.val_main_cst Cert.KernelIdeal.Layer.weights
  rfl

/-- The degree: the weights summed into their destination nodes, starting from 0. -/
private theorem degree_eq (x1 : IVec S2x640000 32) (x2 : FVec Ideal S640000 .f32) :
    Read.val_main_v11 (F := Ideal) x1 x2 = Cert.KernelIdeal.Layer.degree x1 x2 := by
  unfold Read.val_main_v11 Read.val_main_v10 Read.val_main_v9 Read.val_main_cst_0 Cert.KernelIdeal.Layer.degree
  rw [dst_eq, weights_eq]
  rfl

/-- The inverse square root of the degree where it is positive, 0 elsewhere; the outlined selection is a
    conversion that changes nothing, a broadcast of 0 and a select. -/
private theorem invSqrtDegree_eq (x1 : IVec S2x640000 32) (x2 : FVec Ideal S640000 .f32) :
    Read.val_main_v15 (F := Ideal) x1 x2 = Cert.KernelIdeal.Layer.invSqrtDegree x1 x2 := by
  unfold Read.val_main_v15 Read.val_main_v13 Read.val_main_v14 Read.val_main_v12 Read.val_main_cst_1
    Read.val_main_call0_v1 Read.val_main_call0_v0 Read.val_main_cst_2 Cert.KernelIdeal.Layer.invSqrtDegree
  rw [degree_eq]

/-- The source list read from the end where negative (first occurrence, for the coefficients). -/
private theorem fromEnd_src_a (x1 : IVec S2x640000 32) :
    Read.val_main_v20 (F := Ideal) x1 = Cert.KernelIdeal.Layer.fromEnd (Cert.KernelIdeal.Layer.srcNodes x1) := by
  unfold Read.val_main_v20 Read.val_main_v17 Read.val_main_v19 Read.val_main_v16 Read.val_main_v18
    Read.val_main_c Read.val_main_c_3 Cert.KernelIdeal.Layer.fromEnd
  rw [src_eq]

/-- The destination list read from the end where negative. -/
private theorem fromEnd_dst_a (x1 : IVec S2x640000 32) :
    Read.val_main_v28 (F := Ideal) x1 = Cert.KernelIdeal.Layer.fromEnd (Cert.KernelIdeal.Layer.dstNodes x1) := by
  unfold Read.val_main_v28 Read.val_main_v25 Read.val_main_v27 Read.val_main_v24 Read.val_main_v26
    Read.val_main_c_4 Read.val_main_c_5 Cert.KernelIdeal.Layer.fromEnd
  rw [dst_eq]

/-- Every edge's coefficient: the source's inverse square root degree, the weight, the destination's. -/
private theorem coefficients_eq (x1 : IVec S2x640000 32) (x2 : FVec Ideal S640000 .f32) :
    Read.val_main_v31 (F := Ideal) x1 x2 = Cert.KernelIdeal.Layer.coefficients x1 x2 := by
  unfold Read.val_main_v31 Read.val_main_v23 Read.val_main_v22 Read.val_main_v30 Read.val_main_v21 Read.val_main_v29
    Cert.KernelIdeal.Layer.coefficients
  rw [fromEnd_src_a, fromEnd_dst_a, invSqrtDegree_eq, weights_eq]
  rfl

/-- The source list read from the end where negative (as the first layer's gather uses it). -/
private theorem fromEnd_src_b (x1 : IVec S2x640000 32) :
    Read.val_main_v37 (F := Ideal) x1 = Cert.KernelIdeal.Layer.fromEnd (Cert.KernelIdeal.Layer.srcNodes x1) := by
  unfold Read.val_main_v37 Read.val_main_v34 Read.val_main_v36 Read.val_main_v33 Read.val_main_v35
    Read.val_main_c_6 Read.val_main_c_7 Cert.KernelIdeal.Layer.fromEnd
  rw [src_eq]

/-- The first layer's message passing: rows gathered at the sources, scaled by the coefficients, summed into
    the destinations, applied to the features times the first matrix. -/
private theorem propagate_a (x0 : FVec Ideal S2x50000x128 .f32) (x1 : IVec S2x640000 32) (x2 : FVec Ideal S640000 .f32)
    (x3 : FVec Ideal S128x128 .f32) :
    Read.val_main_v46 (F := Ideal) x0 x1 x2 x3
      = Cert.KernelIdeal.Layer.propagate (Cert.KernelIdeal.Layer.srcNodes x1) (Cert.KernelIdeal.Layer.dstNodes x1)
          (Cert.KernelIdeal.Layer.coefficients x1 x2) (Read.val_main_v32 (F := Ideal) x0 x3) := by
  unfold Read.val_main_v46 Read.val_main_v45 Read.val_main_v43 Read.val_main_cst_8 Read.val_main_v44 Read.val_main_v42
    Read.val_main_v39 Read.val_main_v38 Read.val_main_v41 Read.val_main_v40 Cert.KernelIdeal.Layer.propagate
  rw [fromEnd_src_b, dst_eq, coefficients_eq]
  rfl

/-- The first layer: its message passing, the bias added along the feature axis, the maximum with 0. -/
private theorem layer_a (x0 : FVec Ideal S2x50000x128 .f32) (x1 : IVec S2x640000 32) (x2 : FVec Ideal S640000 .f32)
    (x3 : FVec Ideal S128x128 .f32) (x4 : FVec Ideal S128 .f32) :
    Read.val_main_v50 (F := Ideal) x0 x1 x2 x3 x4
      = layer (Cert.KernelIdeal.Layer.srcNodes x1) (Cert.KernelIdeal.Layer.dstNodes x1)
          (Cert.KernelIdeal.Layer.coefficients x1 x2) x0 x3 x4 := by
  unfold Read.val_main_v50 Read.val_main_v49 Read.val_main_v48 Read.val_main_v47 Read.val_main_call1_v0
    Read.val_main_call1_cst layer
  rw [propagate_a]
  rfl

/-- The source list read from the end where negative (as the second layer's gather uses it). -/
private theorem fromEnd_src_c (x1 : IVec S2x640000 32) :
    Read.val_main_v56 (F := Ideal) x1 = Cert.KernelIdeal.Layer.fromEnd (Cert.KernelIdeal.Layer.srcNodes x1) := by
  unfold Read.val_main_v56 Read.val_main_v53 Read.val_main_v55 Read.val_main_v52 Read.val_main_v54
    Read.val_main_c_9 Read.val_main_c_10 Cert.KernelIdeal.Layer.fromEnd
  rw [src_eq]

/-- The second layer's message passing, applied to the first layer's result times the second matrix. -/
private theorem propagate_b (x0 : FVec Ideal S2x50000x128 .f32) (x1 : IVec S2x640000 32) (x2 : FVec Ideal S640000 .f32)
    (x3 : FVec Ideal S128x128 .f32) (x4 : FVec Ideal S128 .f32) (x5 : FVec Ideal S128x128 .f32) :
    Read.val_main_v65 (F := Ideal) x0 x1 x2 x3 x4 x5
      = Cert.KernelIdeal.Layer.propagate (Cert.KernelIdeal.Layer.srcNodes x1) (Cert.KernelIdeal.Layer.dstNodes x1)
          (Cert.KernelIdeal.Layer.coefficients x1 x2) (Read.val_main_v51 (F := Ideal) x0 x1 x2 x3 x4 x5) := by
  unfold Read.val_main_v65 Read.val_main_v64 Read.val_main_v62 Read.val_main_cst_11 Read.val_main_v63 Read.val_main_v61
    Read.val_main_v58 Read.val_main_v57 Read.val_main_v60 Read.val_main_v59 Cert.KernelIdeal.Layer.propagate
  rw [fromEnd_src_c, dst_eq, coefficients_eq]
  rfl

/-- The reference's last stage is two such layers over the same edge lists and coefficients. -/
theorem stages_eq (x0 : FVec Ideal S2x50000x128 .f32) (x1 : IVec S2x640000 32) (x2 : FVec Ideal S640000 .f32)
    (x3 : FVec Ideal S128x128 .f32) (x4 : FVec Ideal S128 .f32) (x5 : FVec Ideal S128x128 .f32) (x6 : FVec Ideal S128 .f32) :
    Cert.ReferenceIdeal.Read.val_main_v69 (F := Ideal) x0 x1 x2 x3 x4 x5 x6
      = layer (Cert.KernelIdeal.Layer.srcNodes x1) (Cert.KernelIdeal.Layer.dstNodes x1) (Cert.KernelIdeal.Layer.coefficients x1 x2)
          (layer (Cert.KernelIdeal.Layer.srcNodes x1) (Cert.KernelIdeal.Layer.dstNodes x1) (Cert.KernelIdeal.Layer.coefficients x1 x2) x0 x3 x4)
          x5 x6 := by
  unfold Read.val_main_v69 Read.val_main_v68 Read.val_main_v67 Read.val_main_v66 Read.val_main_call2_v0
    Read.val_main_call2_cst
  rw [propagate_b]
  unfold Read.val_main_v51
  rw [layer_a]
  rfl

end Cert.ReferenceIdeal.Layer

end
-- ==== Proof.Bridge.lean ====
import proofs.«111858_j678604833376_1_alg».proof.Proof.Layer
import proofs.«111858_j678604833376_1_alg».proof.Proof.RefLayer
import Idealize.ShloMosaic.Lib.Pipeline.Value
import Idealize.ShloMosaic.PureOps.Ideal.Laws

noncomputable section

namespace Cert.Bridge

open Idealize.ShloMosaic Idealize.ShloMosaic.TcCoe Idealize.ShloMosaic.ValueIdx Idealize.SL.Sem
open Cert.KernelIdeal Cert.KernelIdeal.Gen

/-- The array with its (batch, node) rows flattened, read at row `50000·β + n` and column `f`, is the array at
    `(β, n, f)`: both entries sit at row-major position `(50000·β + n)·128 + f`. -/
private theorem flat_apply {α : Type} (x : S2x50000x128.Idx → α) (β : Fin 2) (n : Fin 50000) (f : Fin 128)
    (h : 50000 * β.val + n.val < 100000) :
    shapeCast S100000x128 x shapeCasts_S2x50000x128_S100000x128 (ix2 ⟨50000 * β.val + n.val, h⟩ f) = x (ix3 β n f) := by
  refine shapeCast_apply x _ _ (ix3 β n f) ?_
  rw [Shape.rowMajor_val_three, Shape.rowMajor_val_two]
  show (β.val * 50000 + n.val) * 128 + f.val = (50000 * β.val + n.val) * 128 + f.val
  omega

/-- The matrix of all rows with its rows split back into (batch, node), read at `(β, n, f)`, is the matrix at row
    `50000·β + n` and column `f`. -/
private theorem unflat_apply {α : Type} (y : S100000x128.Idx → α) (β : Fin 2) (n : Fin 50000) (f : Fin 128)
    (h : 50000 * β.val + n.val < 100000) :
    shapeCast S2x50000x128 y shapeCasts_S100000x128_S2x50000x128 (ix3 β n f) = y (ix2 ⟨50000 * β.val + n.val, h⟩ f) := by
  refine shapeCast_apply y _ _ (ix2 ⟨50000 * β.val + n.val, h⟩ f) ?_
  rw [Shape.rowMajor_val_three, Shape.rowMajor_val_two]
  show (50000 * β.val + n.val) * 128 + f.val = (β.val * 50000 + n.val) * 128 + f.val
  omega

/-- The bias vector laid out as a one-row matrix, read at `(0, f)`, is the vector at `f`. -/
private theorem bias_apply {α : Type} (b : S128.Idx → α) (f : Fin 128) :
    shapeCast S1x128 b shapeCasts_S128_S1x128 (ix2 (0 : Fin 1) f) = b (ix1 f) := by
  refine shapeCast_apply b _ _ (ix1 f) ?_
  rw [Shape.rowMajor_val_one, Shape.rowMajor_val_two]
  show f.val = 0 * 128 + f.val
  omega

/-- Flattening the (batch, node) rows, multiplying every row by `W` and unflattening is the contraction of the
    feature axis with `W`'s rows. -/
theorem product_eq (X : FVec Ideal S2x50000x128 .f32) (W : FVec Ideal S128x128 .f32) :
    shapeCast S2x50000x128 (Layer.rowsTimes (shapeCast S100000x128 X shapeCasts_S2x50000x128_S100000x128) W) shapeCasts_S100000x128_S2x50000x128
      = Host.dotGeneral Cert.ReferenceIdeal.dot_S2x50000x128_S128x128_S2x50000x128_2_0_01_1_n_n none X W := by
  funext i
  obtain ⟨β, n, f, rfl⟩ : ∃ β n f, i = ix3 β n f := ⟨i 0, i 1, i 2, eq_ix3 i⟩
  have h : 50000 * β.val + n.val < 100000 := by omega
  rw [unflat_apply _ β n f h]
  refine Eq.trans ?_ (Cert.ReferenceIdeal.Read.val_main_v32_apply X W (ix3 β n f)).symm
  unfold Layer.rowsTimes
  refine Finset.sum_congr rfl fun k _ => ?_
  have e1 : shapeCast S100000x128 X shapeCasts_S2x50000x128_S100000x128 (ix2 (ix2 (⟨50000 * β.val + n.val, h⟩ : Fin 100000) f 0) k)
      = X (Cert.ReferenceIdeal.Read.lidx_main_v32 (ix3 β n f) k) := by
    refine (flat_apply X β n k h).trans (congrArg X ?_)
    exact funext fun a => Fin.ext (by
      match a with
      | ⟨0, _⟩ => rfl
      | ⟨1, _⟩ => rfl
      | ⟨2, _⟩ => rfl)
  have e2 : W (ix2 k (ix2 (⟨50000 * β.val + n.val, h⟩ : Fin 100000) f 1)) = W (Cert.ReferenceIdeal.Read.ridx_main_v32 (ix3 β n f) k) :=
    congrArg W (funext fun a => Fin.ext (by
      match a with
      | ⟨0, _⟩ => rfl
      | ⟨1, _⟩ => rfl))
  exact congrArg₂ (· * ·) e1 e2

/-- Flattening the rows, adding the bias row to each and clamping at 0, and unflattening, is adding the bias along
    the feature axis and clamping at 0. -/
theorem biasRelu_eq (A : FVec Ideal S2x50000x128 .f32) (b : FVec Ideal S128 .f32) :
    shapeCast S2x50000x128 (Layer.biasRelu (shapeCast S100000x128 A shapeCasts_S2x50000x128_S100000x128)
        (shapeCast S1x128 b shapeCasts_S128_S1x128)) shapeCasts_S100000x128_S2x50000x128
      = maximumf
          (addf A (broadcastInDim Cert.ReferenceIdeal.S2x50000x128 ![0, 1, 2] Cert.ReferenceIdeal.Gen.bcast_S1x1x128_S2x50000x128_0_1_2
            (broadcastInDim Cert.ReferenceIdeal.S1x1x128 ![2] Cert.ReferenceIdeal.Gen.bcast_S128_S1x1x128_2 b)))
          (broadcastInDim Cert.ReferenceIdeal.S2x50000x128 ![] Cert.ReferenceIdeal.Gen.bcast_S_S2x50000x128
            (constant (F := Ideal) Cert.ReferenceIdeal.S_ .f32 0x00000000#32)) := by
  funext i
  obtain ⟨β, n, f, rfl⟩ : ∃ β n f, i = ix3 β n f := ⟨i 0, i 1, i 2, eq_ix3 i⟩
  have h : 50000 * β.val + n.val < 100000 := by omega
  rw [unflat_apply _ β n f h, maximumf_apply, addf_apply]
  unfold Layer.biasRelu
  have eA : shapeCast S100000x128 A shapeCasts_S2x50000x128_S100000x128 (ix2 (⟨50000 * β.val + n.val, h⟩ : Fin 100000) f)
      = A (ix3 β n f) := flat_apply A β n f h
  have eb : shapeCast S1x128 b shapeCasts_S128_S1x128 (ix2 (0 : Fin 1) (ix2 (⟨50000 * β.val + n.val, h⟩ : Fin 100000) f 1))
      = b (ix1 f) := bias_apply b f
  have eR : broadcastInDim Cert.ReferenceIdeal.S2x50000x128 ![0, 1, 2] Cert.ReferenceIdeal.Gen.bcast_S1x1x128_S2x50000x128_0_1_2
        (broadcastInDim Cert.ReferenceIdeal.S1x1x128 ![2] Cert.ReferenceIdeal.Gen.bcast_S128_S1x1x128_2 b) (ix3 β n f)
      = b (ix1 f) := by
    refine (Cert.ReferenceIdeal.Read.val_main_v67_apply (F := Ideal) b (ix3 β n f)).trans ?_
    refine (Cert.ReferenceIdeal.Read.val_main_v66_apply (F := Ideal) b _).trans (congrArg b ?_)
    exact funext fun a => Fin.ext (by
      match a with
      | ⟨0, _⟩ => rfl)
  have eZ : broadcastInDim Cert.ReferenceIdeal.S2x50000x128 ![] Cert.ReferenceIdeal.Gen.bcast_S_S2x50000x128
        (constant (F := Ideal) Cert.ReferenceIdeal.S_ .f32 0x00000000#32) (ix3 β n f)
      = Ideal.ofBits .f32 0x00000000#32 :=
    Cert.ReferenceIdeal.Read.val_main_call2_v0_apply (F := Ideal) (ix3 β n f)
  rw [eR, eZ]
  exact congrArg₂ (fun u v => max (u + v) (Ideal.ofBits .f32 0x00000000#32)) eA eb

/-- The kernel's layer and the reference's are one function. -/
theorem layer_eq (src dst : IVec S690000 32) (coef : FVec Ideal S690000 .f32)
    (X : FVec Ideal S2x50000x128 .f32) (W : FVec Ideal S128x128 .f32) (b : FVec Ideal S128 .f32) :
    Layer.layer src dst coef X W b = Cert.ReferenceIdeal.Layer.layer src dst coef X W b := by
  unfold Layer.layer Cert.ReferenceIdeal.Layer.layer
  rw [product_eq X W]
  exact biasRelu_eq _ b

end Cert.Bridge

end
-- ==== Proof.lean ====
/-
  The kernel and its reference are one function of the arguments over the extended reals.

  The kernel runs four regions among stretches of host operations: every (batch, node) feature row times a
  128 × 128 matrix, ten blocks of 10000 rows at a time; a bias row added to every row with negative entries replaced
  by 0, blockwise again; and the same two once more. Between them the host gathers each edge's source row, scales it
  by the edge's coefficient and adds it into the edge's destination row. The reference does the product as one
  contraction of the feature axis and the bias step on the whole array, with the same host operations for the
  edges. Block by block the first is a restriction of the second, the blocks tile the rows, and flattening the
  (batch, node) pair into one row index and back changes no entry: so both end at the same array. No step moves a
  factor across a sum or cancels, so the finiteness of the inputs is never used.
-/
import proofs.«111858_j678604833376_1_alg».proof.Defs
import proofs.«111858_j678604833376_1_alg».proof.Proof.Gen.Kernel.Frame
import proofs.«111858_j678604833376_1_alg».proof.Proof.Gen.KernelIdeal.Frame
import proofs.«111858_j678604833376_1_alg».proof.Proof.Gen.ReferenceIdeal
import proofs.«111858_j678604833376_1_alg».proof.Proof.Gen.ReferenceIdeal.Read
import proofs.«111858_j678604833376_1_alg».proof.Proof.Gen.Pre_finite_inputs
import proofs.«111858_j678604833376_1_alg».proof.Proof.KernelRun
import proofs.«111858_j678604833376_1_alg».proof.Proof.FoldResult
import proofs.«111858_j678604833376_1_alg».proof.Proof.RefLayer
import proofs.«111858_j678604833376_1_alg».proof.Proof.Bridge
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the two-layer function of the arguments in their result. -/
theorem algebraic : Cert.algebraic_KernelIdeal_ReferenceIdeal := by
  intro m ρ m' ρ' _ hagree
  refine ⟨fun c => Cert.KernelIdeal.Layer.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.result_eq m ρ c), (h c).2⟩)
      (Cert.KernelIdeal.GenRun.run_main m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6⟩ := hagree c
    rw [Cert.ReferenceIdeal.Read.val_main_v69_eq, Cert.ReferenceIdeal.Layer.stages_eq, e0, e1, e2, e3, e4, e5, e6]
    beta_reduce
    unfold Cert.KernelIdeal.Layer.result
    rw [Cert.Bridge.layer_eq, Cert.Bridge.layer_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
